-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x40 .f32) (main_arg5 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S2000x128 : Shape := ⟨2, ![2000, 128]⟩
abbrev S850000x128 : Shape := ⟨2, ![850000, 128]⟩
abbrev S1x128 : Shape := ⟨2, ![1, 128]⟩
abbrev S50000x40 : Shape := ⟨2, ![50000, 40]⟩
abbrev S2000x40 : Shape := ⟨2, ![2000, 40]⟩
abbrev S850000x40 : Shape := ⟨2, ![850000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 84
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S50000, .i32⟩
  | .hbm, ⟨11, _⟩ => ⟨S850000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x40, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x40, .f32⟩
  | .hbm, ⟨75, _⟩ => ⟨S850000x1, .f32⟩
  | .hbm, ⟨76, _⟩ => ⟨S850000x40, .f32⟩
  | .hbm, ⟨77, _⟩ => ⟨S850000x40, .f32⟩
  | .hbm, ⟨78, _⟩ => ⟨S_, .f32⟩
  | .hbm, ⟨79, _⟩ => ⟨S50000x40, .f32⟩
  | .hbm, ⟨80, _⟩ => ⟨S850000x1, .i32⟩
  | .hbm, ⟨81, _⟩ => ⟨S50000x40, .f32⟩
  | .hbm, ⟨82, _⟩ => ⟨S1x40, .f32⟩
  | .hbm, ⟨83, _⟩ => ⟨S50000x40, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x40, .f32⟩
  | .local _ .vmem, ⟨13, _⟩ => ⟨S2000x40, .f32⟩
  | .local _ .vmem, ⟨14, _⟩ => ⟨S2000x40, .f32⟩
  | .local _ .vmem, ⟨15, _⟩ => ⟨S2000x40, .f32⟩
  | .local _ .vmem, ⟨16, _⟩ => ⟨S2000x40, .f32⟩
  | .local _ .vmem, ⟨17, _⟩ => ⟨S1x40, .f32⟩
  | .local _ .vmem, ⟨18, _⟩ => ⟨S2000x40, .f32⟩
  | .local _ .vmem, ⟨19, _⟩ => ⟨S2000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x40_S2000x40_1_0_0_1_n_n_wf : DotDims.WF S2000x128 S128x40 S2000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x40.size a ≤ S50000x40.size a
  hwx2_2 : ∀ i : grid2.Coords, EltTy.bits .f32 = 32 ∨ (Rect.block (s := S50000x40) S2000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x40.size a ≤ S50000x40.size a
  hwx3_0 : ∀ i : grid3.Coords, EltTy.bits .f32 = 32 ∨ (Rect.block (s := S50000x40) S2000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x40.size a ≤ S50000x40.size a
  hwx3_2 : ∀ i : grid3.Coords, EltTy.bits .f32 = 32 ∨ (Rect.block (s := S50000x40) S2000x40.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S2000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S2000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S2000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 143
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x40, .f32⟩
  | 5 => ⟨S40, .f32⟩
  | 6 => ⟨S1x800000, .i32⟩
  | 7 => ⟨S800000, .i32⟩
  | 8 => ⟨S1x800000, .i32⟩
  | 9 => ⟨S800000, .i32⟩
  | 10 => ⟨S50000x128, .f32⟩
  | 11 => ⟨S50000, .i32⟩
  | 12 => ⟨S850000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S50000, .f32⟩
  | 24 => ⟨S_, .f32⟩
  | 25 => ⟨S_, .f32⟩
  | 26 => ⟨S50000, .f32⟩
  | 27 => ⟨S50000, .f32⟩
  | 28 => ⟨S_, .i32⟩
  | 29 => ⟨S850000, .i32⟩
  | 30 => ⟨S850000, .i1⟩
  | 31 => ⟨S_, .i32⟩
  | 32 => ⟨S850000, .i32⟩
  | 33 => ⟨S850000, .i32⟩
  | 34 => ⟨S850000, .i32⟩
  | 35 => ⟨S850000x1, .i32⟩
  | 36 => ⟨S850000, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S850000, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x128, .f32⟩
  | 56 => ⟨S850000x1, .f32⟩
  | 57 => ⟨S850000x128, .f32⟩
  | 58 => ⟨S850000x128, .f32⟩
  | 59 => ⟨S_, .f32⟩
  | 60 => ⟨S50000x128, .f32⟩
  | 61 => ⟨S850000x1, .i32⟩
  | 62 => ⟨S50000x128, .f32⟩
  | 63 => ⟨S1x128, .f32⟩
  | 64 => ⟨S50000x128, .f32⟩
  | 65 => ⟨S50000x128, .f32⟩
  | 66 => ⟨S_, .f32⟩
  | 67 => ⟨S50000x128, .f32⟩
  | 68 => ⟨S50000x128, .f32⟩
  | 69 => ⟨S50000x40, .f32⟩
  | 70 => ⟨S50000, .i32⟩
  | 71 => ⟨S850000, .i32⟩
  | 72 => ⟨S850000, .i32⟩
  | 73 => ⟨S_, .f32⟩
  | 74 => ⟨S850000, .f32⟩
  | 75 => ⟨S_, .f32⟩
  | 76 => ⟨S50000, .f32⟩
  | 77 => ⟨S850000x1, .i32⟩
  | 78 => ⟨S50000, .f32⟩
  | 79 => ⟨S_, .f32⟩
  | 80 => ⟨S50000, .f32⟩
  | 81 => ⟨S50000, .i1⟩
  | 82 => ⟨S50000, .f32⟩
  | 83 => ⟨S_, .f32⟩
  | 84 => ⟨S_, .f32⟩
  | 85 => ⟨S50000, .f32⟩
  | 86 => ⟨S50000, .f32⟩
  | 87 => ⟨S_, .i32⟩
  | 88 => ⟨S850000, .i32⟩
  | 89 => ⟨S850000, .i1⟩
  | 90 => ⟨S_, .i32⟩
  | 91 => ⟨S850000, .i32⟩
  | 92 => ⟨S850000, .i32⟩
  | 93 => ⟨S850000, .i32⟩
  | 94 => ⟨S850000x1, .i32⟩
  | 95 => ⟨S850000, .f32⟩
  | 96 => ⟨S_, .i32⟩
  | 97 => ⟨S850000, .i32⟩
  | 98 => ⟨S850000, .i1⟩
  | 99 => ⟨S_, .i32⟩
  | 100 => ⟨S850000, .i32⟩
  | 101 => ⟨S850000, .i32⟩
  | 102 => ⟨S850000, .i32⟩
  | 103 => ⟨S850000x1, .i32⟩
  | 104 => ⟨S850000, .f32⟩
  | 105 => ⟨S850000, .f32⟩
  | 106 => ⟨S_, .i32⟩
  | 107 => ⟨S850000, .i32⟩
  | 108 => ⟨S850000, .i1⟩
  | 109 => ⟨S_, .i32⟩
  | 110 => ⟨S850000, .i32⟩
  | 111 => ⟨S850000, .i32⟩
  | 112 => ⟨S850000, .i32⟩
  | 113 => ⟨S850000x1, .i32⟩
  | 114 => ⟨S850000x40, .f32⟩
  | 115 => ⟨S850000x1, .f32⟩
  | 116 => ⟨S850000x40, .f32⟩
  | 117 => ⟨S850000x40, .f32⟩
  | 118 => ⟨S_, .f32⟩
  | 119 => ⟨S50000x40, .f32⟩
  | 120 => ⟨S850000x1, .i32⟩
  | 121 => ⟨S50000x40, .f32⟩
  | 122 => ⟨S1x40, .f32⟩
  | 123 => ⟨S50000x40, .f32⟩
  | 124 => ⟨S50000x40, .f32⟩
  | 125 => ⟨S_, .f32⟩
  | 126 => ⟨S50000x40, .f32⟩
  | 127 => ⟨S50000x40, .f32⟩
  | _ => ⟨S50000x128, .f32⟩

abbrev hbmTy0_1 (i : Nat) : BufTy := match i % 128 with
  | 0 => ⟨S_, .f32⟩
  | 1 => ⟨S50000, .f32⟩
  | 2 => ⟨S_, .f32⟩
  | 3 => ⟨S50000, .f32⟩
  | 4 => ⟨S50000, .f32⟩
  | 5 => ⟨S50000x1, .f32⟩
  | 6 => ⟨S50000x40, .f32⟩
  | 7 => ⟨S50000x40, .f32⟩
  | 8 => ⟨S50000x40, .f32⟩
  | 9 => ⟨S_, .f32⟩
  | 10 => ⟨S50000, .f32⟩
  | 11 => ⟨S50000x1, .f32⟩
  | 12 => ⟨S50000x1, .f32⟩
  | 13 => ⟨S50000x40, .f32⟩
  | 14 => ⟨S50000x40, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_9 : Ref sig .tc := ⟨.hbm, 73, rfl⟩
abbrev main_v52 : Ref sig .tc := ⟨.hbm, 74, rfl⟩
abbrev main_cst_10 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_call2_v0 : Ref sig .tc := ⟨.hbm, 84, rfl⟩
abbrev main_call2_v1 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_c_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_c_15 : Ref sig .tc := ⟨.hbm, 96, rfl⟩
abbrev main_v67 : Ref sig .tc := ⟨.hbm, 97, rfl⟩
abbrev main_v68 : Ref sig .tc := ⟨.hbm, 98, rfl⟩
abbrev main_c_16 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_c_17 : Ref sig .tc := ⟨.hbm, 106, rfl⟩
abbrev main_v75 : Ref sig .tc := ⟨.hbm, 107, rfl⟩
abbrev main_v76 : Ref sig .tc := ⟨.hbm, 108, rfl⟩
abbrev main_c_18 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_cst_19 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_call3_cst : Ref sig .tc := ⟨.hbm, 125, rfl⟩
abbrev main_call3_v0 : Ref sig .tc := ⟨.hbm, 126, rfl⟩
abbrev main_v91 : Ref sig .tc := ⟨.hbm, 127, rfl⟩
abbrev main_call4_cst : Ref sig .tc := ⟨.hbm, 128, rfl⟩
abbrev main_call4_v0 : Ref sig .tc := ⟨.hbm, 129, rfl⟩
abbrev main_call4_cst_0 : Ref sig .tc := ⟨.hbm, 130, rfl⟩
abbrev main_call4_v1 : Ref sig .tc := ⟨.hbm, 131, rfl⟩
abbrev main_call4_v2 : Ref sig .tc := ⟨.hbm, 132, rfl⟩
abbrev main_call4_v3 : Ref sig .tc := ⟨.hbm, 133, rfl⟩
abbrev main_call4_v4 : Ref sig .tc := ⟨.hbm, 134, rfl⟩
abbrev main_call4_v5 : Ref sig .tc := ⟨.hbm, 135, rfl⟩
abbrev main_call4_v6 : Ref sig .tc := ⟨.hbm, 136, rfl⟩
abbrev main_call4_cst_1 : Ref sig .tc := ⟨.hbm, 137, rfl⟩
abbrev main_call4_v7 : Ref sig .tc := ⟨.hbm, 138, rfl⟩
abbrev main_call4_v8 : Ref sig .tc := ⟨.hbm, 139, rfl⟩
abbrev main_call4_v9 : Ref sig .tc := ⟨.hbm, 140, rfl⟩
abbrev main_call4_v10 : Ref sig .tc := ⟨.hbm, 141, rfl⟩
abbrev main_v92 : Ref sig .tc := ⟨.hbm, 142, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.Spec.lean ====
/-
  The row-level mathematics of a two-layer graph convolution, free of any program.

  Every dense stage of the network acts on each row (one node's feature vector) by itself:
  a projection `x ↦ x · W`, a bias followed by the positive part, and the logarithm of the softmax
  of a row.  `rowwise g a` applies a row function `g` to every row of an array `a`.  The irregular
  stage between them (gather along the edges, scale, scatter-add into the destination nodes) is the
  same host operation in both programs and is never opened.
-/
import Idealize.ShloMosaic.Lib.ValueIdx
import Idealize.ShloMosaic.PureOps.Ideal.Laws

noncomputable section

open scoped BigOperators

namespace Gcn

open Idealize.ShloMosaic Idealize.ShloMosaic.ValueIdx

/-- A rank-2 array of extended reals. -/
abbrev Arr (N A : ℕ) := (⟨2, ![N, A]⟩ : Shape).Idx → EReal

/-- Row `n` of an array. -/
def row {N A : ℕ} (a : Arr N A) (n : Fin N) : Fin A → EReal := fun k => a (ix2 n k)

/-- A row function applied to every row. -/
def rowwise {N A B : ℕ} (g : (Fin A → EReal) → Fin B → EReal) (a : Arr N A) : Arr N B :=
  fun i => g (fun k => a (ix2 (i 0) k)) (i 1)

theorem rowwise_apply {N A B : ℕ} (g : (Fin A → EReal) → Fin B → EReal) (a : Arr N A) (p : Fin N) (q : Fin B) :
    rowwise g a (ix2 p q) = g (fun k => a (ix2 p k)) q := rfl

/-- Two arrays are equal when they agree at every pair of coordinates. -/
theorem arr_ext {N A : ℕ} {a b : Arr N A} (h : ∀ (p : Fin N) (q : Fin A), a (ix2 p q) = b (ix2 p q)) : a = b := by
  funext j
  obtain ⟨p, q, rfl⟩ : ∃ (p : Fin N) (q : Fin A), j = ix2 p q := ⟨j 0, j 1, eq_ix2 j⟩
  exact h p q

/-- A row times a weight matrix. -/
def mmRow {K H : ℕ} (w : Arr K H) (x : Fin K → EReal) : Fin H → EReal :=
  fun h => ∑ k : Fin K, x k * w (ix2 k h)

/-- A bias added, then the positive part (against the zero both programs spell as the all-zero word). -/
def brRow {H : ℕ} (b : Fin H → EReal) (x : Fin H → EReal) : Fin H → EReal :=
  fun h => max (x h + b h) (Ideal.ofBits .f32 0x00000000#32)

/-- The largest entry of a row (−∞ for an empty one). -/
def rowMax {H : ℕ} (z : Fin H → EReal) : EReal := (Finset.univ : Finset (Fin H)).fold max ⊥ z

/-- The logarithm of the softmax of a row: shift by the maximum, subtract the log of the sum of exponentials. -/
def lsmRow {H : ℕ} (z : Fin H → EReal) : Fin H → EReal :=
  fun h => (z h - rowMax z) - Ideal.log (∑ k : Fin H, Ideal.exp (z k - rowMax z))

end Gcn

end
-- ==== Proof.LibRowOps.lean ====
/-
  Dense layers and row concatenations read one row at a time, at the ideal values.

  A network of dense layers acts on each row of a row-major array by itself.  This file fixes that row-level
  vocabulary — `dense` (a row times a weight matrix, plus a bias), `relu`, `cat2` / `cat3` / `cat4` (rows
  laid end to end) — and reads the array-level operations of both spellings at an index `(n, h)`:
  a kernel's `tpu.matmul` of narrowed operands into a zero accumulator plus a bias cast to one row and
  broadcast down the rows; the host's `dot_general` plus a bias broadcast in two steps; the positive part
  against a zero splat; a concatenation along the columns; the host's minimum over a middle axis of extent four; and the host's
  expansion of the logistic function.
  Everything is generic in the extents.
-/
import Idealize.ShloMosaic.Lib.ValueIdx
import Idealize.ShloMosaic.Lib.ValueLayout
import Idealize.ShloMosaic.Lib.Pipeline.Value
import Idealize.ShloMosaic.PureOps.Ideal.Laws
import Idealize.ShloMosaic.Lib.IdealHost

noncomputable section

open scoped BigOperators

namespace RowOps

open Idealize.ShloMosaic Idealize.ShloMosaic.ValueIdx

/-! ## The row-level vocabulary -/

/-- A dense layer on one row: the row times the weight matrix, plus the bias. -/
def dense {K H : ℕ} (W : (⟨2, ![K, H]⟩ : Shape).Idx → EReal) (b : (⟨1, ![H]⟩ : Shape).Idx → EReal)
    (x : Fin K → EReal) : Fin H → EReal :=
  fun h => (∑ k : Fin K, x k * W (ix2 k h)) + b (ix1 h)

/-- The positive part, against the zero both programs spell as the all-zero word. -/
def relu {H : ℕ} (x : Fin H → EReal) : Fin H → EReal :=
  fun h => max (x h) (Ideal.ofBits .f32 0x00000000#32)

/-- Two rows laid end to end (a position past both reads zero; none is ever read). -/
def cat2 {A B : ℕ} (C : ℕ) (x : Fin A → EReal) (y : Fin B → EReal) : Fin C → EReal :=
  fun j => if h : j.val < A then x ⟨j.val, h⟩ else if h2 : j.val - A < B then y ⟨j.val - A, h2⟩ else 0

/-- Three rows laid end to end. -/
def cat3 {A B D : ℕ} (C : ℕ) (x : Fin A → EReal) (y : Fin B → EReal) (z : Fin D → EReal) : Fin C → EReal :=
  fun j => if h : j.val < A then x ⟨j.val, h⟩ else if h2 : j.val - A < B then y ⟨j.val - A, h2⟩
    else if h3 : j.val - A - B < D then z ⟨j.val - A - B, h3⟩ else 0

/-- Four rows laid end to end. -/
def cat4 {A B D E : ℕ} (C : ℕ) (x : Fin A → EReal) (y : Fin B → EReal) (z : Fin D → EReal) (w : Fin E → EReal) :
    Fin C → EReal :=
  fun j => if h : j.val < A then x ⟨j.val, h⟩ else if h2 : j.val - A < B then y ⟨j.val - A, h2⟩
    else if h3 : j.val - A - B < D then z ⟨j.val - A - B, h3⟩
    else if h4 : j.val - A - B - D < E then w ⟨j.val - A - B - D, h4⟩ else 0

/-! ## A plain matrix product read at an index -/

section Plain
variable {M K N : ℕ}

theorem plain_lhs0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

theorem plain_lhs1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The contraction's sum, re-indexed by the one contracted coordinate. -/
theorem plain_sum {φ₁ φ₂ : FTy} (l : FVec Ideal ⟨2, ![M, K]⟩ φ₁) (r : FVec Ideal ⟨2, ![K, N]⟩ φ₂) (p : Fin M) (q : Fin N) :
    (∑ k : (DotDims.plain M K N).contr.Idx, l ((DotDims.plain M K N).lhsIdx (ix2 p q) k) * r ((DotDims.plain M K N).rhsIdx (ix2 p q) k))
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain matrix product into the zero splat, at `(p, q)`: row `p` of the left against column `q` of the right. -/
theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    matmul d prec l r (constant ⟨2, ![M, N]⟩ .f32 0x00000000#32) (ix2 p q) = ∑ k : Fin K, l (ix2 p k) * r (ix2 k q) := by
  subst hd
  show FloatOps.matmul (DotDims.plain M K N) prec l r (constant ⟨2, ![M, N]⟩ .f32 0x00000000#32) (ix2 p q) = _
  rw [Ideal.matmul_constant_zero_apply]
  exact plain_sum l r p q

/-- The host's plain matrix product at `(p, q)`: the same sum. -/
theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  subst hd
  simp only [Host.dotGeneral]
  rw [Ideal.dotGeneral_apply]
  exact plain_sum l r p q

end Plain

/-! ## A bias along the columns, in both spellings -/

section Bias
variable {R H : ℕ} {α : Type}

/-- The kernel's spelling: the bias cast to one row, that row broadcast down the rows. -/
theorem bias_cast_apply (b : (⟨1, ![H]⟩ : Shape).Idx → α) (hsc : (⟨1, ![H]⟩ : Shape).ShapeCasts ⟨2, ![1, H]⟩)
    (hbc : (⟨2, ![1, H]⟩ : Shape).Broadcasts ⟨2, ![R, H]⟩) (n : Fin R) (h : Fin H) :
    broadcastTo ⟨2, ![R, H]⟩ (shapeCast ⟨2, ![1, H]⟩ b hsc) hbc (ix2 n h) = b (ix1 h) := by
  rw [broadcastTo_1b_ab_apply, shapeCast_a_1a_apply]

/-- The host's spelling: the bias broadcast to one row, then down the rows. -/
theorem bias_bcast_apply (b : (⟨1, ![H]⟩ : Shape).Idx → α) (d1 : Fin 1 → Fin 2) (hd1 : d1 0 = 1)
    (h1 : (⟨1, ![H]⟩ : Shape).BroadcastsInDim ⟨2, ![1, H]⟩ d1) (d2 : Fin 2 → Fin 2) (hd20 : d2 0 = 0) (hd21 : d2 1 = 1)
    (h2 : (⟨2, ![1, H]⟩ : Shape).BroadcastsInDim ⟨2, ![R, H]⟩ d2) (n : Fin R) (h : Fin H) :
    broadcastInDim ⟨2, ![R, H]⟩ d2 h2 (broadcastInDim ⟨2, ![1, H]⟩ d1 h1 b) (ix2 n h) = b (ix1 h) := by
  rw [broadcastInDim_apply d2 h2 _ (ix2 n h) (ix2 (0 : Fin 1) h) (fun a => by
    match a with
    | ⟨0, _⟩ => show 0 = if (1 : ℕ) = 1 then 0 else _; rw [if_pos rfl]
    | ⟨1, _⟩ =>
      show h.val = if H = 1 then 0 else (ix2 n h (d2 1)).val
      rw [hd21]
      split
      · have := h.isLt; omega
      · rfl)]
  exact broadcastInDim_apply d1 h1 b (ix2 (0 : Fin 1) h) (ix1 h) (fun a => by
    match a with
    | ⟨0, _⟩ =>
      show h.val = if H = 1 then 0 else (ix2 (0 : Fin 1) h (d1 0)).val
      rw [hd1]
      split
      · have := h.isLt; omega
      · rfl)

end Bias

/-! ## A dense layer of an array, read at a row -/

section Dense
variable {R K H : ℕ}

/-- The kernel's dense layer: the narrowed operands' product into the zero splat, plus the bias row. -/
theorem dense_kernel_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (hy : FTy.bf16.bits < FTy.f32.bits) (hW : FTy.bf16.bits < FTy.f32.bits)
    (hsc : (⟨1, ![H]⟩ : Shape).ShapeCasts ⟨2, ![1, H]⟩) (hbc : (⟨2, ![1, H]⟩ : Shape).Broadcasts ⟨2, ![R, H]⟩)
    (n : Fin R) (h : Fin H) :
    addf (matmul d none (truncf .bf16 y hy) (truncf .bf16 W hW) (constant ⟨2, ![R, H]⟩ .f32 0x00000000#32))
        (broadcastTo ⟨2, ![R, H]⟩ (shapeCast ⟨2, ![1, H]⟩ b hsc) hbc) (ix2 n h)
      = dense W b (fun k => y (ix2 n k)) h := by
  show matmul d none (truncf .bf16 y hy) (truncf .bf16 W hW) (constant ⟨2, ![R, H]⟩ .f32 0x00000000#32) (ix2 n h)
      + broadcastTo ⟨2, ![R, H]⟩ (shapeCast ⟨2, ![1, H]⟩ b hsc) hbc (ix2 n h) = _
  rw [matmul_plain_apply d hd, bias_cast_apply]
  rfl

/-- The host's dense layer: `dot_general` plus the bias broadcast in two steps. -/
theorem dense_host_apply (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (d1 : Fin 1 → Fin 2) (hd1 : d1 0 = 1) (h1 : (⟨1, ![H]⟩ : Shape).BroadcastsInDim ⟨2, ![1, H]⟩ d1)
    (d2 : Fin 2 → Fin 2) (hd20 : d2 0 = 0) (hd21 : d2 1 = 1) (h2 : (⟨2, ![1, H]⟩ : Shape).BroadcastsInDim ⟨2, ![R, H]⟩ d2)
    (n : Fin R) (h : Fin H) :
    addf (Host.dotGeneral d none y W) (broadcastInDim ⟨2, ![R, H]⟩ d2 h2 (broadcastInDim ⟨2, ![1, H]⟩ d1 h1 b)) (ix2 n h)
      = dense W b (fun k => y (ix2 n k)) h := by
  show Host.dotGeneral d none y W (ix2 n h)
      + broadcastInDim ⟨2, ![R, H]⟩ d2 h2 (broadcastInDim ⟨2, ![1, H]⟩ d1 h1 b) (ix2 n h) = _
  rw [dotGeneral_plain_apply d hd, bias_bcast_apply b d1 hd1 h1 d2 hd20 hd21 h2]
  rfl

/-- The kernel's positive part: the maximum with a splat of the zero word. -/
theorem relu_kernel_apply (z : FVec Ideal ⟨2, ![R, H]⟩ .f32) (n : Fin R) (h : Fin H) :
    maximumf z (broadcast ⟨2, ![R, H]⟩ (Scalar.ofBits (F := Ideal) .f32 0x00000000#32)) (ix2 n h)
      = relu (fun j => z (ix2 n j)) h := rfl

/-- The host's positive part: the maximum with the zero constant broadcast from a scalar. -/
theorem relu_host_apply (z : FVec Ideal ⟨2, ![R, H]⟩ .f32) (d0 : Fin 0 → Fin 2)
    (hb : (⟨0, ![]⟩ : Shape).BroadcastsInDim ⟨2, ![R, H]⟩ d0) (n : Fin R) (h : Fin H) :
    maximumf z (broadcastInDim ⟨2, ![R, H]⟩ d0 hb (constant (F := Ideal) ⟨0, ![]⟩ .f32 0x00000000#32)) (ix2 n h)
      = relu (fun j => z (ix2 n j)) h := rfl

end Dense

/-! ## A concatenation along the columns, read at a row -/

section Cat
variable {R A B D E C : ℕ}

/-- Two arrays joined along the columns: row `n` of the result is the two rows laid end to end. -/
theorem cat2_apply (x : (⟨2, ![R, A]⟩ : Shape).Idx → EReal) (y : (⟨2, ![R, B]⟩ : Shape).Idx → EReal)
    (hc : Shape.Concatenates [(⟨2, ![R, A]⟩ : Shape), ⟨2, ![R, B]⟩] ⟨2, ![R, C]⟩ 1) (hC : C = A + B) (n : Fin R) (j : Fin C) :
    concatenate ⟨2, ![R, C]⟩ 1 [⟨⟨2, ![R, A]⟩, x⟩, ⟨⟨2, ![R, B]⟩, y⟩] hc (ix2 n j)
      = cat2 C (fun k => x (ix2 n k)) (fun k => y (ix2 n k)) j := by
  unfold cat2
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · have h2 : j.val - A < B := by omega
    rw [dif_neg hj, dif_pos h2]
    exact concatenate_apply_piece (1 : Fin (⟨2, ![R, C]⟩ : Shape).rank) [⟨⟨2, ![R, A]⟩, x⟩, ⟨⟨2, ![R, B]⟩, y⟩] hc (ix2 n j) 1 (by simp) ⟨2, ![R, B]⟩ y rfl rfl A
      (by simp) (ix2 n ⟨j.val - A, h2⟩) (fun b hb => by
        match b with
        | ⟨0, _⟩ => rfl
        | ⟨1, _⟩ => exact absurd (Fin.ext rfl) hb) (by show A + (j.val - A) = j.val; omega)

/-- Three arrays joined along the columns. -/
theorem cat3_apply (x : (⟨2, ![R, A]⟩ : Shape).Idx → EReal) (y : (⟨2, ![R, B]⟩ : Shape).Idx → EReal)
    (z : (⟨2, ![R, D]⟩ : Shape).Idx → EReal)
    (hc : Shape.Concatenates [(⟨2, ![R, A]⟩ : Shape), ⟨2, ![R, B]⟩, ⟨2, ![R, D]⟩] ⟨2, ![R, C]⟩ 1) (hC : C = A + B + D)
    (n : Fin R) (j : Fin C) :
    concatenate ⟨2, ![R, C]⟩ 1 [⟨⟨2, ![R, A]⟩, x⟩, ⟨⟨2, ![R, B]⟩, y⟩, ⟨⟨2, ![R, D]⟩, z⟩] hc (ix2 n j)
      = cat3 C (fun k => x (ix2 n k)) (fun k => y (ix2 n k)) (fun k => z (ix2 n k)) j := by
  unfold cat3
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · have h3 : j.val - A - B < D := by omega
      rw [dif_neg h2, dif_pos h3]
      exact concatenate_apply_piece (1 : Fin (⟨2, ![R, C]⟩ : Shape).rank) [⟨⟨2, ![R, A]⟩, x⟩, ⟨⟨2, ![R, B]⟩, y⟩, ⟨⟨2, ![R, D]⟩, z⟩] hc (ix2 n j) 2 (by simp) ⟨2, ![R, D]⟩ z rfl rfl (A + B)
        (by simp) (ix2 n ⟨j.val - A - B, h3⟩) (fun b hb => by
          match b with
          | ⟨0, _⟩ => rfl
          | ⟨1, _⟩ => exact absurd (Fin.ext rfl) hb) (by show A + B + (j.val - A - B) = j.val; omega)

/-- Four arrays joined along the columns. -/
theorem cat4_apply (x : (⟨2, ![R, A]⟩ : Shape).Idx → EReal) (y : (⟨2, ![R, B]⟩ : Shape).Idx → EReal)
    (z : (⟨2, ![R, D]⟩ : Shape).Idx → EReal) (w : (⟨2, ![R, E]⟩ : Shape).Idx → EReal)
    (hc : Shape.Concatenates [(⟨2, ![R, A]⟩ : Shape), ⟨2, ![R, B]⟩, ⟨2, ![R, D]⟩, ⟨2, ![R, E]⟩] ⟨2, ![R, C]⟩ 1)
    (hC : C = A + B + D + E) (n : Fin R) (j : Fin C) :
    concatenate ⟨2, ![R, C]⟩ 1 [⟨⟨2, ![R, A]⟩, x⟩, ⟨⟨2, ![R, B]⟩, y⟩, ⟨⟨2, ![R, D]⟩, z⟩, ⟨⟨2, ![R, E]⟩, w⟩] hc (ix2 n j)
      = cat4 C (fun k => x (ix2 n k)) (fun k => y (ix2 n k)) (fun k => z (ix2 n k)) (fun k => w (ix2 n k)) j := by
  unfold cat4
  have hjC := j.isLt
  by_cases hj : j.val < A
  · rw [dif_pos hj]
    exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 0 (by simp) ⟨2, ![R, A]⟩ x rfl rfl 0 rfl
      (ix2 n ⟨j.val, hj⟩) (fun b hb => by
        match b with
        | ⟨0, _⟩ => rfl
        | ⟨1, _⟩ => exact absurd (Fin.ext rfl) hb) (Nat.zero_add _)
  · rw [dif_neg hj]
    by_cases h2 : j.val - A < B
    · rw [dif_pos h2]
      exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 1 (by simp) ⟨2, ![R, B]⟩ y rfl rfl A
        (by simp) (ix2 n ⟨j.val - A, h2⟩) (fun b hb => by
          match b with
          | ⟨0, _⟩ => rfl
          | ⟨1, _⟩ => exact absurd (Fin.ext rfl) hb) (by show A + (j.val - A) = j.val; omega)
    · rw [dif_neg h2]
      by_cases h3 : j.val - A - B < D
      · rw [dif_pos h3]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 2 (by simp) ⟨2, ![R, D]⟩ z rfl rfl (A + B)
          (by simp) (ix2 n ⟨j.val - A - B, h3⟩) (fun b hb => by
            match b with
            | ⟨0, _⟩ => rfl
            | ⟨1, _⟩ => exact absurd (Fin.ext rfl) hb) (by show A + B + (j.val - A - B) = j.val; omega)
      · have h4 : j.val - A - B - D < E := by omega
        rw [dif_neg h3, dif_pos h4]
        exact concatenate_apply_piece (1 : Fin (⟨2, ![R, C]⟩ : Shape).rank) [⟨⟨2, ![R, A]⟩, x⟩, ⟨⟨2, ![R, B]⟩, y⟩, ⟨⟨2, ![R, D]⟩, z⟩, ⟨⟨2, ![R, E]⟩, w⟩] hc (ix2 n j) 3 (by simp) ⟨2, ![R, E]⟩ w rfl rfl
          (A + B + D) (by simp; omega) (ix2 n ⟨j.val - A - B - D, h4⟩) (fun b hb => by
            match b with
            | ⟨0, _⟩ => rfl
            | ⟨1, _⟩ => exact absurd (Fin.ext rfl) hb) (by show A + B + D + (j.val - A - B - D) = j.val; omega)

end Cat

/-! ## The host's minimum over a middle axis of extent four -/

section Min4
variable {R H : ℕ}

/-- A fold of a commutative, associative operation over the four positions, written out. -/
theorem fold_univ_fin4 {β : Type} (op : β → β → β) [Std.Commutative op] [Std.Associative op] (init : β) (f : Fin 4 → β) :
    (Finset.univ : Finset (Fin 4)).fold op init f = op (f 0) (op (f 1) (op (f 2) (op (f 3) init))) := by
  have hu : (Finset.univ : Finset (Fin 4)) = insert 0 (insert 1 (insert 2 {3})) := by decide
  rw [hu, Finset.fold_insert (by decide), Finset.fold_insert (by decide), Finset.fold_insert (by decide), Finset.fold_singleton]

/-- The reduced index `(n, c)` with the middle coordinate `k` put back is `(n, k, c)`. -/
theorem lift_mid (h : (⟨3, ![R, 4, H]⟩ : Shape).Reduces [1] (⟨2, ![R, H]⟩ : Shape)) (n : Fin R) (c : Fin H)
    (k : Fin ((⟨3, ![R, 4, H]⟩ : Shape).size 1)) : h.lift (ix2 n c) k = ix3 n (⟨k.val, k.isLt⟩ : Fin 4) c := by
  funext a; apply Fin.ext
  fin_cases a <;> rfl

/-- From +∞ the host's reduce with a minimum body over the middle axis, at `(n, c)`, is the least of the four entries. -/
theorem reduceMin4_apply (z : FVec Ideal ⟨3, ![R, 4, H]⟩ .f32)
    (h' : (⟨3, ![R, 4, H]⟩ : Shape).ReducesTo [1] (⟨2, ![R, H]⟩ : Shape))
    (h : (⟨3, ![R, 4, H]⟩ : Shape).Reduces [1] (⟨2, ![R, H]⟩ : Shape)) (hu : 0 < (⟨0, ![]⟩ : Shape).numel)
    (n : Fin R) (c : Fin H) :
    Host.reduce FloatOps.minimumf z (constant (F := Ideal) (⟨0, ![]⟩ : Shape) .f32 0x7F800000#32) h' hu (ix2 n c)
      = min (min (min (z (ix3 n 0 c)) (z (ix3 n 1 c))) (z (ix3 n 2 c))) (z (ix3 n 3 c)) := by
  rw [Host.reduce_eq_fold_single FloatOps.minimumf z _ h' h hu]
  have e := fold_univ_fin4 (min : Ideal .f32 → Ideal .f32 → Ideal .f32) (Ideal.ofBits .f32 0x7F800000#32)
    (fun k : Fin 4 => z (ix3 n k c))
  have htop : ∀ y : Ideal .f32, min y (Ideal.ofBits .f32 0x7F800000#32) = y := by
    intro y; show min y (Ideal.ofBits .f32 0x7F800000#32) = y; simp [Ideal.ofBits, Ideal.ieee]
  rw [htop, ← min_assoc, ← min_assoc] at e
  refine Eq.trans ?_ e
  have hf : (z ∘ h.lift (ix2 n c)) = fun k : Fin 4 => z (ix3 n k c) := funext fun k => congrArg z (lift_mid h n c k)
  exact congrArg (fun f => Finset.fold min (Ideal.ofBits .f32 0x7F800000#32) f (Finset.univ : Finset (Fin 4))) hf

end Min4

/-! ## Layout steps of a kernel body, read at a row -/

section Layout
variable {R P H : ℕ} {α : Type}

/-- One column broadcast across the columns: at `(n, h)` the column's entry in row `n`. -/
theorem broadcastTo_a1_ab_apply (v : (⟨2, ![R, 1]⟩ : Shape).Idx → α) (hbc : (⟨2, ![R, 1]⟩ : Shape).Broadcasts ⟨2, ![R, H]⟩)
    (n : Fin R) (h : Fin H) : broadcastTo ⟨2, ![R, H]⟩ v hbc (ix2 n h) = v (ix2 n (0 : Fin 1)) := by
  refine broadcastTo_apply v hbc (ix2 n h) (ix2 n (0 : Fin 1)) fun ax => ?_
  match ax with
  | ⟨0, _⟩ =>
    show n.val = if R = 1 then 0 else n.val
    split
    · have := n.isLt; omega
    · rfl
  | ⟨1, _⟩ => show 0 = if (1 : ℕ) = 1 then 0 else h.val; rw [if_pos rfl]

/-- A middle unit axis dropped by a shape cast: `(n, k)` reads `(n, 0, k)`. -/
theorem shapeCast_a1b_ab_apply (v : (⟨3, ![R, 1, H]⟩ : Shape).Idx → α) (hsc : (⟨3, ![R, 1, H]⟩ : Shape).ShapeCasts ⟨2, ![R, H]⟩)
    (n : Fin R) (k : Fin H) : shapeCast ⟨2, ![R, H]⟩ v hsc (ix2 n k) = v (ix3 n (0 : Fin 1) k) :=
  shapeCast_apply v hsc _ _ (by
    rw [Shape.rowMajor_val_three, Shape.rowMajor_val_two]
    show (n.val * 1 + 0) * H + k.val = n.val * H + k.val
    rw [Nat.mul_one, Nat.add_zero])

/-- A load of the slab at middle position `s` of a rank-3 buffer: `(n, 0, k)` of the slab is `(n, s, k)` of the buffer. -/
theorem ld_mid_apply {Val : EltTy → Type} {e : EltTy} (x : (⟨3, ![R, P, H]⟩ : Shape).Idx → Val e) (s : ℕ) (hs : s < P)
    (inb : ∀ a, (![0, s, 0] : Fin 3 → ℕ) a + (⟨3, ![R, 1, H]⟩ : Shape).size a ≤ (⟨3, ![R, P, H]⟩ : Shape).size a)
    (n : Fin R) (k : Fin H) :
    View.ld x (Rect.unit (s := ⟨3, ![R, P, H]⟩) ![0, s, 0] (⟨3, ![R, 1, H]⟩ : Shape).size inb) (ix3 n (0 : Fin 1) k)
      = x (ix3 n (⟨s, hs⟩ : Fin P) k) := by
  show x ((Rect.unit (s := ⟨3, ![R, P, H]⟩) ![0, s, 0] (⟨3, ![R, 1, H]⟩ : Shape).size inb).emb (ix3 n (0 : Fin 1) k)) = _
  refine congrArg x (funext fun a => Fin.ext ?_)
  match a with
  | ⟨0, _⟩ => show 0 + 1 * n.val = n.val; omega
  | ⟨1, _⟩ => show s + 1 * 0 = s; omega
  | ⟨2, _⟩ => show 0 + 1 * k.val = k.val; omega

/-- A kernel's logistic function, entry by entry. -/
theorem logistic_apply {s : Shape} (a : FVec Ideal s .f32) (i : s.Idx) : logistic a i = Ideal.logistic (a i) := rfl

end Layout

/-! ## The host's dense layer with its printed broadcast dimensions, and its logistic function -/

section Host
variable {R K H : ℕ}

/-- `dense_host_apply` at the usual broadcast dimensions: the bias to axis 1 of one row, that row to both axes. -/
theorem dense_host_apply' (d : DotDims ⟨2, ![R, K]⟩ ⟨2, ![K, H]⟩ ⟨2, ![R, H]⟩) (hd : d = DotDims.plain R K H)
    (y : FVec Ideal ⟨2, ![R, K]⟩ .f32) (W : FVec Ideal ⟨2, ![K, H]⟩ .f32) (b : FVec Ideal ⟨1, ![H]⟩ .f32)
    (h1 : (⟨1, ![H]⟩ : Shape).BroadcastsInDim ⟨2, ![1, H]⟩ ![1]) (h2 : (⟨2, ![1, H]⟩ : Shape).BroadcastsInDim ⟨2, ![R, H]⟩ ![0, 1])
    (n : Fin R) (h : Fin H) :
    addf (Host.dotGeneral d none y W) (broadcastInDim ⟨2, ![R, H]⟩ ![0, 1] h2 (broadcastInDim ⟨2, ![1, H]⟩ ![1] h1 b)) (ix2 n h)
      = dense W b (fun k => y (ix2 n k)) h :=
  dense_host_apply d hd y W b _ rfl h1 _ rfl rfl h2 n h

/-- The logistic function spelt out on the host — one over one plus the exponential of the negation,
    the ones broadcast from a scalar constant — is the logistic function of the entry. -/
theorem logistic_host_apply {s : Shape} (z : FVec Ideal s .f32) (d0 : Fin 0 → Fin s.rank)
    (hb1 hb2 : (⟨0, ![]⟩ : Shape).BroadcastsInDim s d0) (i : s.Idx) :
    Host.divf (broadcastInDim s d0 hb1 (constant (F := Ideal) ⟨0, ![]⟩ .f32 0x3F800000#32))
        (addf (broadcastInDim s d0 hb2 (constant (F := Ideal) ⟨0, ![]⟩ .f32 0x3F800000#32)) (Host.exp (Host.negf z))) i
      = Ideal.logistic (z i) := by
  show FloatOps.hostDivf (Ideal.ofBits .f32 0x3F800000#32)
      (FloatOps.addf (Ideal.ofBits .f32 0x3F800000#32) (FloatOps.hostUnary .exp (FloatOps.hostNegf (z i)))) = _
  rw [Ideal.ofBits_one_f32]
  rfl

end Host

end RowOps

end
-- ==== Proof.RowKernel.lean ====
/-
  The four kernel bodies of a two-layer graph convolution, read one row at a time at the ideal values.

  Each body acts on every row of its first operand by itself: a projection of the row by a weight matrix,
  a bias followed by the positive part, and the logarithm of the softmax of a biased, clipped row.  The
  statements read a body at the pair of coordinates `(p, q)` as the row function of the specification
  applied to row `p`, at column `q`.
-/
import proofs.«132210_j42563125903764_1_alg».proof.Proof.Gen.KernelIdeal.Skeleton
import proofs.«132210_j42563125903764_1_alg».proof.Proof.Spec
import proofs.«132210_j42563125903764_1_alg».proof.Proof.LibRowOps
import Idealize.ShloMosaic.Lib.ValueIdx
import Idealize.ShloMosaic.Lib.ValueLayout
import Idealize.ShloMosaic.Lib.Pipeline.Value
import Idealize.ShloMosaic.PureOps.Ideal.Laws

set_option synthInstance.maxSize 4096

noncomputable section

open scoped BigOperators

namespace Cert.KernelIdeal.RowKernel

open Idealize.ShloMosaic Idealize.ShloMosaic.ValueIdx Cert.KernelIdeal Cert.KernelIdeal.Gen

/-! ## Row readings, generic in the extents -/

section Generic
variable {R H : ℕ}

/-- The accumulator word of a lane maximum reads −∞. -/
theorem ofBits_neg_inf : Ideal.ofBits .f32 0xFF800000#32 = ⊥ := by simp [Ideal.ofBits, Ideal.ieee]

/-- The reduced index `p` with the column `k` put back is `(p, k)`. -/
theorem lift_col (h : (⟨2, ![R, H]⟩ : Shape).Reduces [1] (⟨1, ![R]⟩ : Shape)) (p : Fin R)
    (k : Fin ((⟨2, ![R, H]⟩ : Shape).size 1)) : h.lift (ix1 p) k = ix2 p (⟨k.val, k.isLt⟩ : Fin H) := by
  funext a; apply Fin.ext
  fin_cases a <;> rfl

/-- A vector of row results cast to one column: `(p, 0)` reads entry `p`. -/
theorem shapeCast_a_a1_apply {α : Type} (x : (⟨1, ![R]⟩ : Shape).Idx → α) (h : (⟨1, ![R]⟩ : Shape).ShapeCasts ⟨2, ![R, 1]⟩)
    (p : Fin R) (u : Fin 1) : shapeCast ⟨2, ![R, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A bias row added to every row, then the positive part: at `(p, q)` the row function of the specification. -/
theorem bias_relu_apply (x : FVec Ideal ⟨2, ![R, H]⟩ .f32) (b : FVec Ideal ⟨2, ![1, H]⟩ .f32)
    (hx : (⟨2, ![R, H]⟩ : Shape).ShapeCasts ⟨2, ![R, H]⟩) (hb : (⟨2, ![1, H]⟩ : Shape).ShapeCasts ⟨2, ![1, H]⟩)
    (hbc : (⟨2, ![1, H]⟩ : Shape).Broadcasts ⟨2, ![R, H]⟩) (p : Fin R) (q : Fin H) :
    maximumf (addf (shapeCast ⟨2, ![R, H]⟩ x hx) (broadcastTo ⟨2, ![R, H]⟩ (shapeCast ⟨2, ![1, H]⟩ b hb) hbc))
        (broadcast ⟨2, ![R, H]⟩ (Scalar.ofBits (F := Ideal) .f32 0x00000000#32)) (ix2 p q)
      = Gcn.brRow (fun h => b (ix2 (0 : Fin 1) h)) (fun k => x (ix2 p k)) q := by
  rw [shapeCast_self, shapeCast_self]
  show max (x (ix2 p q) + broadcastTo ⟨2, ![R, H]⟩ b hbc (ix2 p q)) (Ideal.ofBits .f32 0x00000000#32) = _
  rw [broadcastTo_1b_ab_apply]
  rfl

/-- The lane maximum of row `p`, from the accumulator word that reads −∞: the largest entry of the row. -/
theorem rowmax_apply (z : FVec Ideal ⟨2, ![R, H]⟩ .f32) (h : (⟨2, ![R, H]⟩ : Shape).Reduces [1] (⟨1, ![R]⟩ : Shape))
    (hφ : FKind.Formats .f32) (hacc : (0xFF800000#32 : BitVec 32) = FKind.maximumf.neutral .f32 hφ) (p : Fin R) :
    multiReduction (F := Ideal) .maximumf [1] ⟨1, ![R]⟩ z 0xFF800000#32 h hφ hacc (ix1 p)
      = Gcn.rowMax (fun k => z (ix2 p k)) := by
  refine (Ideal.multiReduction_maximumf_single z 0xFF800000#32 h hφ hacc (ix1 p)).trans ?_
  have hf : (z ∘ h.lift (ix1 p)) = fun k : Fin H => z (ix2 p k) := funext fun k => congrArg z (lift_col h p k)
  unfold Gcn.rowMax
  rw [← ofBits_neg_inf]
  exact congrArg (fun f => Finset.fold max (Ideal.ofBits .f32 0xFF800000#32) f (Finset.univ : Finset (Fin H))) hf

/-- The lane sum of row `p`, from the zero word: the sum of the row's entries. -/
theorem rowsum_apply (z : FVec Ideal ⟨2, ![R, H]⟩ .f32) (h : (⟨2, ![R, H]⟩ : Shape).Reduces [1] (⟨1, ![R]⟩ : Shape))
    (hφ : FKind.Formats .f32) (hacc : (0x00000000#32 : BitVec 32) = FKind.add.neutral .f32 hφ) (p : Fin R) :
    multiReduction (F := Ideal) .add [1] ⟨1, ![R]⟩ z 0x00000000#32 h hφ hacc (ix1 p) = ∑ k : Fin H, z (ix2 p k) := by
  refine (Ideal.multiReduction_add_single z 0x00000000#32 h hφ hacc (ix1 p)).trans ?_
  exact Finset.sum_congr rfl fun k _ => congrArg z (lift_col h p k)

/-- A row shifted by its largest entry: the row maxima cast to a column and broadcast across the columns, subtracted. -/
theorem shifted_apply (z : FVec Ideal ⟨2, ![R, H]⟩ .f32) (hr : (⟨2, ![R, H]⟩ : Shape).Reduces [1] (⟨1, ![R]⟩ : Shape))
    (hφ : FKind.Formats .f32) (hmax : (0xFF800000#32 : BitVec 32) = FKind.maximumf.neutral .f32 hφ)
    (hsc : (⟨1, ![R]⟩ : Shape).ShapeCasts ⟨2, ![R, 1]⟩) (hbc : (⟨2, ![R, 1]⟩ : Shape).Broadcasts ⟨2, ![R, H]⟩)
    (p : Fin R) (k : Fin H) :
    subf z (broadcastTo ⟨2, ![R, H]⟩ (shapeCast ⟨2, ![R, 1]⟩
        (multiReduction (F := Ideal) .maximumf [1] ⟨1, ![R]⟩ z 0xFF800000#32 hr hφ hmax) hsc) hbc) (ix2 p k)
      = z (ix2 p k) - Gcn.rowMax (fun j => z (ix2 p j)) := by
  show z (ix2 p k) - broadcastTo ⟨2, ![R, H]⟩ (shapeCast ⟨2, ![R, 1]⟩
      (multiReduction (F := Ideal) .maximumf [1] ⟨1, ![R]⟩ z 0xFF800000#32 hr hφ hmax) hsc) hbc (ix2 p k) = _
  rw [RowOps.broadcastTo_a1_ab_apply, shapeCast_a_a1_apply, rowmax_apply]

/-- The logarithm of the softmax of every row, as a kernel body spells it: shift by the row maximum, exponentiate, sum along
    the row, take the logarithm of the sums as a column, broadcast it back and subtract. -/
theorem logsoftmax_apply (z : FVec Ideal ⟨2, ![R, H]⟩ .f32) (hr : (⟨2, ![R, H]⟩ : Shape).Reduces [1] (⟨1, ![R]⟩ : Shape))
    (hφ : FKind.Formats .f32) (hmax : (0xFF800000#32 : BitVec 32) = FKind.maximumf.neutral .f32 hφ)
    (hadd : (0x00000000#32 : BitVec 32) = FKind.add.neutral .f32 hφ)
    (hsc : (⟨1, ![R]⟩ : Shape).ShapeCasts ⟨2, ![R, 1]⟩) (hbc : (⟨2, ![R, 1]⟩ : Shape).Broadcasts ⟨2, ![R, H]⟩)
    (p : Fin R) (q : Fin H) :
    subf (subf z (broadcastTo ⟨2, ![R, H]⟩ (shapeCast ⟨2, ![R, 1]⟩
          (multiReduction (F := Ideal) .maximumf [1] ⟨1, ![R]⟩ z 0xFF800000#32 hr hφ hmax) hsc) hbc))
        (broadcastTo ⟨2, ![R, H]⟩ (log (shapeCast ⟨2, ![R, 1]⟩
          (multiReduction (F := Ideal) .add [1] ⟨1, ![R]⟩
            (exp (subf z (broadcastTo ⟨2, ![R, H]⟩ (shapeCast ⟨2, ![R, 1]⟩
              (multiReduction (F := Ideal) .maximumf [1] ⟨1, ![R]⟩ z 0xFF800000#32 hr hφ hmax) hsc) hbc)))
            0x00000000#32 hr hφ hadd) hsc)) hbc) (ix2 p q)
      = Gcn.lsmRow (fun k => z (ix2 p k)) q := by
  show subf z (broadcastTo ⟨2, ![R, H]⟩ (shapeCast ⟨2, ![R, 1]⟩
          (multiReduction (F := Ideal) .maximumf [1] ⟨1, ![R]⟩ z 0xFF800000#32 hr hφ hmax) hsc) hbc) (ix2 p q)
      - broadcastTo ⟨2, ![R, H]⟩ (log (shapeCast ⟨2, ![R, 1]⟩
          (multiReduction (F := Ideal) .add [1] ⟨1, ![R]⟩
            (exp (subf z (broadcastTo ⟨2, ![R, H]⟩ (shapeCast ⟨2, ![R, 1]⟩
              (multiReduction (F := Ideal) .maximumf [1] ⟨1, ![R]⟩ z 0xFF800000#32 hr hφ hmax) hsc) hbc)))
            0x00000000#32 hr hφ hadd) hsc)) hbc (ix2 p q) = _
  rw [shifted_apply, RowOps.broadcastTo_a1_ab_apply]
  show _ - Ideal.log (shapeCast ⟨2, ![R, 1]⟩
          (multiReduction (F := Ideal) .add [1] ⟨1, ![R]⟩
            (exp (subf z (broadcastTo ⟨2, ![R, H]⟩ (shapeCast ⟨2, ![R, 1]⟩
              (multiReduction (F := Ideal) .maximumf [1] ⟨1, ![R]⟩ z 0xFF800000#32 hr hφ hmax) hsc) hbc)))
            0x00000000#32 hr hφ hadd) hsc (ix2 p (0 : Fin 1))) = _
  rw [shapeCast_a_a1_apply, rowsum_apply]
  unfold Gcn.lsmRow
  refine congrArg (fun s => (z (ix2 p q) - Gcn.rowMax (fun j => z (ix2 p j))) - Ideal.log s) ?_
  refine Finset.sum_congr rfl fun k _ => ?_
  show Ideal.exp (subf z (broadcastTo ⟨2, ![R, H]⟩ (shapeCast ⟨2, ![R, 1]⟩
          (multiReduction (F := Ideal) .maximumf [1] ⟨1, ![R]⟩ z 0xFF800000#32 hr hφ hmax) hsc) hbc) (ix2 p k)) = _
  rw [shifted_apply]

end Generic

/-! ## The four bodies -/

theorem k0_pay_row (x0 : Vec Ideal S2000x128 .f32) (x1 : Vec Ideal S128x128 .f32) (p : Fin 2000) (q : Fin 128) :
    k0_pay1 (F := Ideal) x0 x1 (ix2 p q) = Gcn.mmRow x1 (fun k => x0 (ix2 p k)) q := by
  unfold k0_pay1
  exact RowOps.matmul_plain_apply (M := 2000) (K := 128) (N := 128) _ rfl none _ _ p q

theorem k1_pay_row (x0 : Vec Ideal S2000x128 .f32) (x1 : Vec Ideal S1x128 .f32) (p : Fin 2000) (q : Fin 128) :
    k1_pay1 (F := Ideal) x0 x1 (ix2 p q) = Gcn.brRow (fun h => x1 (ix2 (0 : Fin 1) h)) (fun k => x0 (ix2 p k)) q := by
  unfold k1_pay1
  exact bias_relu_apply (R := 2000) (H := 128) x0 x1 _ _ _ p q

theorem k2_pay_row (x0 : Vec Ideal S2000x128 .f32) (x1 : Vec Ideal S128x40 .f32) (p : Fin 2000) (q : Fin 40) :
    k2_pay1 (F := Ideal) x0 x1 (ix2 p q) = Gcn.mmRow x1 (fun k => x0 (ix2 p k)) q := by
  unfold k2_pay1
  rw [shapeCast_self]
  exact RowOps.matmul_plain_apply (M := 2000) (K := 128) (N := 40) _ rfl none _ _ p q

theorem k3_pay_row (x0 : Vec Ideal S2000x40 .f32) (x1 : Vec Ideal S1x40 .f32) (p : Fin 2000) (q : Fin 40) :
    k3_pay1 (F := Ideal) x0 x1 (ix2 p q)
      = Gcn.lsmRow (Gcn.brRow (fun h => x1 (ix2 (0 : Fin 1) h)) (fun k => x0 (ix2 p k))) q := by
  unfold k3_pay1
  refine (logsoftmax_apply (R := 2000) (H := 40) _ _ _ _ _ _ _ p q).trans ?_
  exact congrArg (fun r => Gcn.lsmRow r q) (funext fun k => bias_relu_apply (R := 2000) (H := 40) x0 x1 _ _ _ p k)

end Cert.KernelIdeal.RowKernel

end
-- ==== Proof.KKeep.lean ====
/-
  Which buffers the host stretches and the regions leave alone.

  @main alternates stretches of host operations with the four regions.  A stretch writes only the buffers of its own
  operations, and a region writes only its result array; so an argument array, and the edge-derived arrays computed
  before the first region (the two endpoint lists with the self loops appended, and the edge weights), are still at
  their earlier contents wherever a later stretch or region reads them.
-/
import proofs.«132210_j42563125903764_1_alg».proof.Proof.Gen.KernelIdeal.Frame

set_option maxRecDepth 16384

noncomputable section

namespace Cert.KernelIdeal.KKeep

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- A stretch of host operations leaves a buffer none of them writes at its earlier contents. -/
local macro "host_keeps" ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

/-! ## The three stretches before the first region leave the arguments as launched -/

theorem W1_keep (c : Dev nD) (b : Ref sig .tc) (hb : b = main_arg0 ∨ b = main_arg2 ∨ b = main_arg3 ∨ b = main_arg4 ∨ b = main_arg5) :
    W1 m ρ c (Proc.devRef .tc b) = W0 m ρ c (Proc.devRef .tc b) := by
  rcases hb with rfl | rfl | rfl | rfl | rfl <;> host_keeps hostOps0

theorem W2_keep (c : Dev nD) (b : Ref sig .tc) (hb : b = main_arg0 ∨ b = main_arg2 ∨ b = main_arg3 ∨ b = main_arg4 ∨ b = main_arg5) :
    W2 m ρ c (Proc.devRef .tc b) = W1 m ρ c (Proc.devRef .tc b) := by
  rcases hb with rfl | rfl | rfl | rfl | rfl <;> host_keeps hostOps0_1

theorem W3_keep (c : Dev nD) (b : Ref sig .tc) (hb : b = main_arg0 ∨ b = main_arg2 ∨ b = main_arg3 ∨ b = main_arg4 ∨ b = main_arg5) :
    W3 m ρ c (Proc.devRef .tc b) = W2 m ρ c (Proc.devRef .tc b) := by
  rcases hb with rfl | rfl | rfl | rfl | rfl <;> host_keeps hostOps0_2

/-- At the first region's entry a float argument array is as launched. -/
theorem W3_arg (c : Dev nD) (b : Ref sig .tc) (hb : b = main_arg0 ∨ b = main_arg2 ∨ b = main_arg3 ∨ b = main_arg4 ∨ b = main_arg5) :
    W3 m ρ c (Proc.devRef .tc b) = m ((c : Thread nD τ).loc b) :=
  (W3_keep m ρ c b hb).trans ((W2_keep m ρ c b hb).trans ((W1_keep m ρ c b hb).trans rfl))

/-! ## Region 0 and the stretch after it -/

/-- Region 0 writes only its result: the arguments and the edge-derived arrays stay. -/
theorem W4_keep (c : Dev nD) (b : Ref sig .tc)
    (hb : b = main_arg3 ∨ b = main_arg4 ∨ b = main_arg5 ∨ b = main_v5 ∨ b = main_v6 ∨ b = main_v29) :
    W4 m ρ c (Proc.devRef .tc b) = W3 m ρ c (Proc.devRef .tc b) := by
  rcases hb with rfl | rfl | rfl | rfl | rfl | rfl <;> exact W4_of_ne m ρ c _ (by decide)

/-- The stretch between regions 0 and 1 computes the first aggregation; it writes none of these. -/
theorem W5_keep (c : Dev nD) (b : Ref sig .tc)
    (hb : b = main_arg4 ∨ b = main_arg5 ∨ b = main_v5 ∨ b = main_v6 ∨ b = main_v29) :
    W5 m ρ c (Proc.devRef .tc b) = W4 m ρ c (Proc.devRef .tc b) := by
  rcases hb with rfl | rfl | rfl | rfl | rfl <;> host_keeps hostOps1

/-! ## Regions 1 and 2 -/

theorem W6_keep (c : Dev nD) (b : Ref sig .tc)
    (hb : b = main_arg4 ∨ b = main_arg5 ∨ b = main_v5 ∨ b = main_v6 ∨ b = main_v29) :
    W6 m ρ c (Proc.devRef .tc b) = W5 m ρ c (Proc.devRef .tc b) := by
  rcases hb with rfl | rfl | rfl | rfl | rfl <;> exact W6_of_ne m ρ c _ (by decide)

theorem W7_keep (c : Dev nD) (b : Ref sig .tc)
    (hb : b = main_arg5 ∨ b = main_v5 ∨ b = main_v6 ∨ b = main_v29) :
    W7 m ρ c (Proc.devRef .tc b) = W6 m ρ c (Proc.devRef .tc b) := by
  rcases hb with rfl | rfl | rfl | rfl <;> exact W7_of_ne m ρ c _ (by decide)

/-! ## The chains, composed -/

/-- The second weight matrix, where region 2 reads it. -/
theorem W6_arg4 (c : Dev nD) : W6 m ρ c (Proc.devRef .tc main_arg4) = m ((c : Thread nD τ).loc main_arg4) :=
  (W6_keep m ρ c _ (by decide)).trans ((W5_keep m ρ c _ (by decide)).trans ((W4_keep m ρ c _ (by decide)).trans (W3_arg m ρ c _ (by decide))))

/-- The first bias, where the stretch after region 0 reads it. -/
theorem W4_arg3 (c : Dev nD) : W4 m ρ c (Proc.devRef .tc main_arg3) = m ((c : Thread nD τ).loc main_arg3) :=
  (W4_keep m ρ c _ (by decide)).trans (W3_arg m ρ c _ (by decide))

/-- The second bias, where the stretch after region 2 reads it. -/
theorem W7_arg5 (c : Dev nD) : W7 m ρ c (Proc.devRef .tc main_arg5) = m ((c : Thread nD τ).loc main_arg5) :=
  (W7_keep m ρ c _ (by decide)).trans ((W6_keep m ρ c _ (by decide)).trans ((W5_keep m ρ c _ (by decide)).trans ((W4_keep m ρ c _ (by decide)).trans (W3_arg m ρ c _ (by decide)))))

/-- An edge-derived array, where the stretch after region 2 reads it, is what the first region's entry held. -/
theorem W7_edge (c : Dev nD) (b : Ref sig .tc) (hb : b = main_v5 ∨ b = main_v6 ∨ b = main_v29) :
    W7 m ρ c (Proc.devRef .tc b) = W3 m ρ c (Proc.devRef .tc b) := by
  rcases hb with rfl | rfl | rfl <;>
    exact (W7_keep m ρ c _ (by decide)).trans ((W6_keep m ρ c _ (by decide)).trans ((W5_keep m ρ c _ (by decide)).trans (W4_keep m ρ c _ (by decide))))

/-- An edge-derived array, where the stretch after region 0 reads it. -/
theorem W4_edge (c : Dev nD) (b : Ref sig .tc) (hb : b = main_v5 ∨ b = main_v6 ∨ b = main_v29) :
    W4 m ρ c (Proc.devRef .tc b) = W3 m ρ c (Proc.devRef .tc b) := by
  rcases hb with rfl | rfl | rfl <;> exact W4_keep m ρ c _ (by decide)

end Cert.KernelIdeal.KKeep

end
-- ==== Proof.KEdge.lean ====
/-
  The edge-derived arrays of a graph convolution, computed alike by both programs.

  From the integer edge list both programs first build three arrays: the source list with a self loop appended for
  every node, the destination list with the same self loops, and the edge weights.  The weight of an edge is the
  product of the inverse square roots of its two endpoints' degrees; the degree of a node is the number of entries
  of the destination list that name it, a node of degree zero weighs zero, and an endpoint below zero is counted
  from the end of the node range.  When its first region is entered the kernel's program holds the three arrays in
  three buffers; the statements below read those buffers as the reference's stages of the same computation, as
  functions of the edge list alone.

  The computation is read in three stretches, each from arbitrary buffer contents: the lists, the degrees' sign and
  inverse square roots; the choice of zero at degree zero; the two reads along the edges and their product.
-/
import proofs.«132210_j42563125903764_1_alg».proof.Proof.Gen.KernelIdeal.Frame
import proofs.«132210_j42563125903764_1_alg».proof.Proof.RefRead
import Idealize.ShloMosaic.Lib.StableHlo.Run
import Idealize.ShloMosaic.PureOps.Ideal

set_option maxRecDepth 16384
set_option Elab.async false

noncomputable section

namespace Cert.KernelIdeal.KEdge

open Idealize.ShloMosaic Idealize.ShloMosaic.TcCoe Idealize.SL.Sem Cert.KernelIdeal Cert.KernelIdeal.Gen

/-- Each operation's result read at a buffer: its function's value at its own result buffer, the earlier contents at any other. -/
macro "results_at" : tactic =>
  `(tactic| repeat (first
      | rw [Idealize.ShloMosaic.StableHlo.nullary_result] | rw [Idealize.ShloMosaic.StableHlo.unary_result]
      | rw [Idealize.ShloMosaic.StableHlo.binary_result] | rw [Idealize.ShloMosaic.StableHlo.ternary_result]
      | rw [Idealize.ShloMosaic.StableHlo.reshape_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide)))

/-! ## The three stretches, from arbitrary buffer contents -/

section Stretches

variable (V : Valuation τ sig (Elt Ideal)) (x : (⟨S2x800000, .i32⟩ : BufTy).Contents (Elt Ideal))

/-- The source list with self loops: the first row of the edge list, then every node once. -/
theorem src_list (hx : V (Proc.devRef .tc main_arg1) = x) :
    StableHlo.after hostOps0 V (Proc.devRef .tc main_v5) = Cert.ReferenceIdeal.ReadP.val_main_v6 (F := Ideal) x := by
  subst hx
  after_results_simp
  results_at
  rfl

/-- The destination list with self loops: the second row of the edge list, then every node once. -/
theorem dst_list (hx : V (Proc.devRef .tc main_arg1) = x) :
    StableHlo.after hostOps0 V (Proc.devRef .tc main_v6) = Cert.ReferenceIdeal.ReadP.val_main_v7 (F := Ideal) x := by
  subst hx
  after_results_simp
  results_at
  rfl

/-- Which nodes have a positive degree. -/
theorem deg_pos (hx : V (Proc.devRef .tc main_arg1) = x) :
    StableHlo.after hostOps0 V (Proc.devRef .tc main_v12) = Cert.ReferenceIdeal.ReadP.val_main_v13 (F := Ideal) x := by
  subst hx
  after_results_simp
  results_at
  rfl

/-- The inverse square roots of the degrees. -/
theorem deg_rsqrt (hx : V (Proc.devRef .tc main_arg1) = x) :
    StableHlo.after hostOps0 V (Proc.devRef .tc main_v13) = Cert.ReferenceIdeal.ReadP.val_main_v14 (F := Ideal) x := by
  subst hx
  after_results_simp
  results_at
  rfl

/-- The zero that stands in at degree zero. -/
theorem zero_word :
    StableHlo.after hostOps0 V (Proc.devRef .tc main_cst_2) = Cert.ReferenceIdeal.ReadP.val_main_cst_2 (F := Ideal) := by
  after_results_simp
  rfl

/-- The choice of zero at degree zero, from the sign and the inverse square roots. -/
theorem where_apply (h12 : V (Proc.devRef .tc main_v12) = Cert.ReferenceIdeal.ReadP.val_main_v13 (F := Ideal) x)
    (h13 : V (Proc.devRef .tc main_v13) = Cert.ReferenceIdeal.ReadP.val_main_v14 (F := Ideal) x)
    (hc : V (Proc.devRef .tc main_cst_2) = Cert.ReferenceIdeal.ReadP.val_main_cst_2 (F := Ideal)) :
    StableHlo.after hostOps0_1 V (Proc.devRef .tc main_v14) = Cert.ReferenceIdeal.ReadP.val_main_v15 (F := Ideal) x := by
  after_results_simp
  results_at
  simp only [StableHlo.TRef.ofBuf, StableHlo.TRef.toBuf, cast_eq]
  rw [h12, h13, hc]
  rfl

/-- The second stretch leaves the two lists as they were. -/
theorem where_keeps_src : StableHlo.after hostOps0_1 V (Proc.devRef .tc main_v5) = V (Proc.devRef .tc main_v5) := by
  after_results_simp
theorem where_keeps_dst : StableHlo.after hostOps0_1 V (Proc.devRef .tc main_v6) = V (Proc.devRef .tc main_v6) := by
  after_results_simp

/-- The edge weights: the chosen values read at each edge's source and at its destination, the two multiplied. -/
theorem weights (h5 : V (Proc.devRef .tc main_v5) = Cert.ReferenceIdeal.ReadP.val_main_v6 (F := Ideal) x)
    (h6 : V (Proc.devRef .tc main_v6) = Cert.ReferenceIdeal.ReadP.val_main_v7 (F := Ideal) x)
    (h14 : V (Proc.devRef .tc main_v14) = Cert.ReferenceIdeal.ReadP.val_main_v15 (F := Ideal) x) :
    StableHlo.after hostOps0_2 V (Proc.devRef .tc main_v29) = Cert.ReferenceIdeal.ReadP.val_main_v30 (F := Ideal) x := by
  after_results_simp
  results_at
  rw [h5, h6, h14]
  rfl

/-- The third stretch leaves the two lists as they were. -/
theorem tail_keeps_src : StableHlo.after hostOps0_2 V (Proc.devRef .tc main_v5) = V (Proc.devRef .tc main_v5) := by
  after_results_simp
theorem tail_keeps_dst : StableHlo.after hostOps0_2 V (Proc.devRef .tc main_v6) = V (Proc.devRef .tc main_v6) := by
  after_results_simp

end Stretches

/-! ## The three buffers at the first region's entry -/

variable (m : (ℓ : Loc nD τ sig) → Buf (Elt Ideal) ℓ) (ρ : Dev nD → PrngReg)

theorem edge5 (c : Dev nD) : W3 m ρ c (Proc.devRef .tc main_v5) = Cert.ReferenceIdeal.ReadP.val_main_v6 (F := Ideal) (m ((c : Thread nD τ).loc main_arg1)) := by
  show StableHlo.after hostOps0_2 (StableHlo.after hostOps0_1 (StableHlo.after hostOps0 (W0 m ρ c))) (Proc.devRef .tc main_v5) = _
  rw [tail_keeps_src, where_keeps_src]
  exact src_list (W0 m ρ c) _ rfl

theorem edge6 (c : Dev nD) : W3 m ρ c (Proc.devRef .tc main_v6) = Cert.ReferenceIdeal.ReadP.val_main_v7 (F := Ideal) (m ((c : Thread nD τ).loc main_arg1)) := by
  show StableHlo.after hostOps0_2 (StableHlo.after hostOps0_1 (StableHlo.after hostOps0 (W0 m ρ c))) (Proc.devRef .tc main_v6) = _
  rw [tail_keeps_dst, where_keeps_dst]
  exact dst_list (W0 m ρ c) _ rfl

theorem edge29 (c : Dev nD) : W3 m ρ c (Proc.devRef .tc main_v29) = Cert.ReferenceIdeal.ReadP.val_main_v30 (F := Ideal) (m ((c : Thread nD τ).loc main_arg1)) := by
  show StableHlo.after hostOps0_2 (StableHlo.after hostOps0_1 (StableHlo.after hostOps0 (W0 m ρ c))) (Proc.devRef .tc main_v29) = _
  refine weights _ _ ?_ ?_ ?_
  · rw [where_keeps_src]; exact src_list (W0 m ρ c) _ rfl
  · rw [where_keeps_dst]; exact dst_list (W0 m ρ c) _ rfl
  · exact where_apply _ _ (deg_pos (W0 m ρ c) _ rfl) (deg_rsqrt (W0 m ρ c) _ rfl) (zero_word (W0 m ρ c))

end Cert.KernelIdeal.KEdge

end
-- ==== Proof.KAgg.lean ====
/-
  The two aggregation stretches of the kernel's @main, read as the reference's stages.

  Between the projections the kernel's @main gathers the projected rows along the edges, scales each by its edge
  weight and scatter-adds them into the destination nodes, with exactly the host operations the reference uses.
  Reading a stretch off the buffer contents it starts from gives that composition applied to the region's result T;
  the edge-derived arrays it reads are the reference's own stages (the source and destination lists and the edge
  weights), so the stretch's result is the reference's aggregation stage with T in the place of its projection.
-/
import proofs.«132210_j42563125903764_1_alg».proof.Proof.Gen.KernelIdeal.Frame
import proofs.«132210_j42563125903764_1_alg».proof.Proof.RefRead
import proofs.«132210_j42563125903764_1_alg».proof.Proof.KKeep
import proofs.«132210_j42563125903764_1_alg».proof.Proof.KEdge
import Idealize.ShloMosaic.Lib.StableHlo.Run
import Idealize.ShloMosaic.PureOps.Ideal

set_option maxRecDepth 16384

noncomputable section

namespace Cert.KernelIdeal.KAgg

open Idealize.ShloMosaic Idealize.ShloMosaic.TcCoe Idealize.SL.Sem Idealize.ShloMosaic.StableHlo
open Cert.KernelIdeal Cert.KernelIdeal.Gen

variable {F : FTy → Type} [FloatOps F]

/-- The reference's first aggregation with an arbitrary array T in the place of its projection. -/
def agg1 (x1 : (⟨Cert.ReferenceIdeal.S2x800000, .i32⟩ : BufTy).Contents (Elt F)) (T : FVec F Cert.ReferenceIdeal.S50000x128 .f32) :
    FVec F Cert.ReferenceIdeal.S50000x128 .f32 :=
  Host.scatterAdd (F := F) Cert.ReferenceIdeal.scatter_S50000x128_S850000x1_S850000x128_1_0_0_1 (Cert.ReferenceIdeal.ReadP.val_main_v41 (F := F))
    (Cert.ReferenceIdeal.ReadP.val_main_v42 (F := F) x1)
    (mulf (Host.gather Cert.ReferenceIdeal.gather_S50000x128_S850000x1_S850000x128_1_0_n_n_0_1_1128 T (Cert.ReferenceIdeal.ReadP.val_main_v36 (F := F) x1))
      (Cert.ReferenceIdeal.ReadP.val_main_v39 (F := F) x1))

/-- The reference's second aggregation with an arbitrary array T in the place of its projection. -/
def agg2 (x1 : (⟨Cert.ReferenceIdeal.S2x800000, .i32⟩ : BufTy).Contents (Elt F)) (T : FVec F Cert.ReferenceIdeal.S50000x40 .f32) :
    FVec F Cert.ReferenceIdeal.S50000x40 .f32 :=
  Host.scatterAdd (F := F) Cert.ReferenceIdeal.scatter_S50000x40_S850000x1_S850000x40_1_0_0_1 (Cert.ReferenceIdeal.ReadP.val_main_v85 (F := F))
    (Cert.ReferenceIdeal.ReadP.val_main_v86 (F := F) x1)
    (mulf (Host.gather Cert.ReferenceIdeal.gather_S50000x40_S850000x1_S850000x40_1_0_n_n_0_1_140 T (Cert.ReferenceIdeal.ReadP.val_main_v80 (F := F) x1))
      (Cert.ReferenceIdeal.ReadP.val_main_v83 (F := F) x1))

/-! ## With the reference's own projections in T's place these are its aggregation stages -/

section Stages
open Cert.ReferenceIdeal.ReadP
variable (x0 : (⟨Cert.ReferenceIdeal.S50000x128, .f32⟩ : BufTy).Contents (Elt F)) (x1 : (⟨Cert.ReferenceIdeal.S2x800000, .i32⟩ : BufTy).Contents (Elt F))
  (x2 : (⟨Cert.ReferenceIdeal.S128x128, .f32⟩ : BufTy).Contents (Elt F)) (x3 : (⟨Cert.ReferenceIdeal.S128, .f32⟩ : BufTy).Contents (Elt F))
  (x4 : (⟨Cert.ReferenceIdeal.S128x40, .f32⟩ : BufTy).Contents (Elt F))

theorem agg1_eq : agg1 x1 (val_main_v4 (F := F) x0 x2) = val_main_v43 (F := F) x0 x1 x2 := by
  unfold agg1 val_main_v43 val_main_v40 val_main_v37
  rfl

theorem agg2_eq : agg2 x1 (val_main_v48 (F := F) x0 x1 x2 x3 x4) = val_main_v87 (F := F) x0 x1 x2 x3 x4 := by
  unfold agg2 val_main_v87 val_main_v84 val_main_v81
  rfl

end Stages

/-! ## The reference computes the edge-derived arrays twice, alike -/

section Dup
open Cert.ReferenceIdeal.ReadP
variable (x : (⟨Cert.ReferenceIdeal.S2x800000, .i32⟩ : BufTy).Contents (Elt F))

/-- The second layer's source list is the first layer's. -/
theorem dup50 : val_main_v50 (F := F) x = val_main_v6 (F := F) x := rfl
/-- The second layer's destination list is the first layer's. -/
theorem dup51 : val_main_v51 (F := F) x = val_main_v7 (F := F) x := rfl
set_option maxHeartbeats 1000000 in
/-- The second layer's edge weights are the first layer's. -/
theorem dup74 : val_main_v74 (F := F) x = val_main_v30 (F := F) x := rfl

end Dup

/-! ## The stretches from arbitrary contents -/

section Any
variable (V : Valuation τ sig (Elt F)) (x1 : (⟨Cert.ReferenceIdeal.S2x800000, .i32⟩ : BufTy).Contents (Elt F))

set_option maxHeartbeats 1000000 in
/-- From contents holding the source list, the destination list, the edge weights and an array T, the stretch after
    region 0 leaves the first aggregation of T. -/
theorem agg1_at (T : FVec F Cert.ReferenceIdeal.S50000x128 .f32)
    (h5 : V (Proc.devRef .tc main_v5) = Cert.ReferenceIdeal.ReadP.val_main_v6 (F := F) x1)
    (h6 : V (Proc.devRef .tc main_v6) = Cert.ReferenceIdeal.ReadP.val_main_v7 (F := F) x1)
    (h29 : V (Proc.devRef .tc main_v29) = Cert.ReferenceIdeal.ReadP.val_main_v30 (F := F) x1)
    (h30 : V (Proc.devRef .tc main_v30) = T) :
    StableHlo.after hostOps1 V (Proc.devRef .tc main_v43) = agg1 x1 T := by
  after_results_simp
  rw [h5, h6, h29, h30]
  rfl

/-- The same stretch casts the first bias to one row. -/
theorem bias1_at : StableHlo.after hostOps1 V (Proc.devRef .tc main_v44)
    = shapeCast S1x128 (V (Proc.devRef .tc main_arg3)) shapeCasts_S128_S1x128 := by
  after_results_simp <;> rfl

set_option maxHeartbeats 1000000 in
/-- From contents holding the three edge-derived arrays and an array T, the stretch after region 2 leaves the second
    aggregation of T. -/
theorem agg2_at (T : FVec F Cert.ReferenceIdeal.S50000x40 .f32)
    (h5 : V (Proc.devRef .tc main_v5) = Cert.ReferenceIdeal.ReadP.val_main_v6 (F := F) x1)
    (h6 : V (Proc.devRef .tc main_v6) = Cert.ReferenceIdeal.ReadP.val_main_v7 (F := F) x1)
    (h29 : V (Proc.devRef .tc main_v29) = Cert.ReferenceIdeal.ReadP.val_main_v30 (F := F) x1)
    (h46 : V (Proc.devRef .tc main_v46) = T) :
    StableHlo.after hostOps3 V (Proc.devRef .tc main_v59) = agg2 x1 T := by
  after_results_simp
  rw [h5, h6, h29, h46, ← dup50, ← dup51, ← dup74]
  rfl

/-- The same stretch casts the second bias to one row. -/
theorem bias2_at : StableHlo.after hostOps3 V (Proc.devRef .tc main_v60)
    = shapeCast S1x40 (V (Proc.devRef .tc main_arg5)) shapeCasts_S40_S1x40 := by
  after_results_simp <;> rfl

end Any

/-! ## At the program's own contents -/

variable (m : (ℓ : Loc nD τ sig) → Buf (Elt Ideal) ℓ) (ρ : Dev nD → PrngReg)

/-- The stretch after region 0: the first aggregation of region 0's result. -/
theorem v43 (c : Dev nD) (T : FVec Ideal Cert.ReferenceIdeal.S50000x128 .f32) (h30 : W4 m ρ c (Proc.devRef .tc main_v30) = T) :
    W5 m ρ c (Proc.devRef .tc main_v43) = agg1 (m ((c : Thread nD τ).loc main_arg1)) T :=
  agg1_at (W4 m ρ c) _ T
    ((KKeep.W4_edge m ρ c main_v5 (by decide)).trans (KEdge.edge5 m ρ c))
    ((KKeep.W4_edge m ρ c main_v6 (by decide)).trans (KEdge.edge6 m ρ c))
    ((KKeep.W4_edge m ρ c main_v29 (by decide)).trans (KEdge.edge29 m ρ c)) h30

/-- The same stretch casts the first bias to one row. -/
theorem v44 (c : Dev nD) :
    W5 m ρ c (Proc.devRef .tc main_v44) = shapeCast S1x128 (m ((c : Thread nD τ).loc main_arg3)) shapeCasts_S128_S1x128 :=
  (bias1_at (W4 m ρ c)).trans (congrArg (fun b => shapeCast S1x128 b shapeCasts_S128_S1x128) (KKeep.W4_arg3 m ρ c))

/-- The stretch after region 2: the second aggregation of region 2's result. -/
theorem v59 (c : Dev nD) (T : FVec Ideal Cert.ReferenceIdeal.S50000x40 .f32) (h46 : W7 m ρ c (Proc.devRef .tc main_v46) = T) :
    W8 m ρ c (Proc.devRef .tc main_v59) = agg2 (m ((c : Thread nD τ).loc main_arg1)) T :=
  agg2_at (W7 m ρ c) _ T
    ((KKeep.W7_edge m ρ c main_v5 (by decide)).trans (KEdge.edge5 m ρ c))
    ((KKeep.W7_edge m ρ c main_v6 (by decide)).trans (KEdge.edge6 m ρ c))
    ((KKeep.W7_edge m ρ c main_v29 (by decide)).trans (KEdge.edge29 m ρ c)) h46

/-- The same stretch casts the second bias to one row. -/
theorem v60 (c : Dev nD) :
    W8 m ρ c (Proc.devRef .tc main_v60) = shapeCast S1x40 (m ((c : Thread nD τ).loc main_arg5)) shapeCasts_S40_S1x40 :=
  (bias2_at (W7 m ρ c)).trans (congrArg (fun b => shapeCast S1x40 b shapeCasts_S40_S1x40) (KKeep.W7_arg5 m ρ c))

end Cert.KernelIdeal.KAgg

end
-- ==== Proof.RefRows.lean ====
/-
  The reference's dense stages, read one row at a time.

  Between the two irregular stages (gather along the edges, scale, scatter-add), the reference applies to every
  row of an array the same row function: a projection by a weight matrix, a bias followed by the positive part,
  and at the end the logarithm of the softmax.  Each theorem below states one such stage as `Gcn.rowwise` of the
  row function over the stage before it, at the ideal values.  The irregular stages enter only through the arrays they produce.
-/
import proofs.«132210_j42563125903764_1_alg».proof.Proof.RefRead
import proofs.«132210_j42563125903764_1_alg».proof.Proof.Spec
import proofs.«132210_j42563125903764_1_alg».proof.Proof.LibRowOps
import Idealize.ShloMosaic.Lib.ValueIdx
import Idealize.ShloMosaic.Lib.Pipeline.Value
import Idealize.ShloMosaic.PureOps.Ideal.Laws

noncomputable section

open scoped BigOperators

namespace Cert.ReferenceIdeal.RefRows

open Cert.ReferenceIdeal Cert.ReferenceIdeal.Gen Idealize.ShloMosaic Idealize.ShloMosaic.TcCoe Idealize.SL.Sem Idealize.ShloMosaic.StableHlo
open Cert.ReferenceIdeal.ReadP
open Idealize.ShloMosaic.ValueIdx

/-- The first projection: every row of the input times the first weight matrix. -/
theorem ref_v4 (x0 : (⟨S50000x128, .f32⟩ : BufTy).Contents (Elt Ideal)) (x2 : (⟨S128x128, .f32⟩ : BufTy).Contents (Elt Ideal)) :
    ReadP.val_main_v4 (F := Ideal) x0 x2 = Gcn.rowwise (Gcn.mmRow x2) x0 := by
  refine Gcn.arr_ext fun p q => ?_
  rw [Gcn.rowwise_apply]
  unfold ReadP.val_main_v4
  exact RowOps.dotGeneral_plain_apply _ rfl none x0 x2 p q

/-- After the first aggregation: the bias along the columns, then the positive part, row by row. -/
theorem ref_v47 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) :
    ReadP.val_main_v47 (F := Ideal) x0 x1 x2 x3 = Gcn.rowwise (Gcn.brRow (fun h => x3 (ix1 h))) (ReadP.val_main_v43 (F := Ideal) x0 x1 x2) := by
  refine Gcn.arr_ext fun p q => ?_
  rw [Gcn.rowwise_apply]
  rw [ReadP.val_main_v47_apply, ReadP.val_main_v46_apply, ReadP.val_main_v45_apply, ReadP.val_main_v44_apply,
    ReadP.val_main_call1_v0_apply, ReadP.val_main_call1_cst_apply]
  -- the bias is read at the column: both broadcasts keep the column coordinate
  have e : ReadP.idx_main_v44 (ReadP.idx_main_v45 (ix2 p q)) = ix1 q :=
    funext fun a => Fin.ext (by match a with | ⟨0, _⟩ => rfl)
  rw [e]
  rfl

/-- The second projection: every row of the hidden layer times the second weight matrix. -/
theorem ref_v48 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x40, .f32⟩ : BufTy).Contents (Elt Ideal)) :
    ReadP.val_main_v48 (F := Ideal) x0 x1 x2 x3 x4 = Gcn.rowwise (Gcn.mmRow x4) (ReadP.val_main_v47 (F := Ideal) x0 x1 x2 x3) := by
  refine Gcn.arr_ext fun p q => ?_
  rw [Gcn.rowwise_apply]
  unfold ReadP.val_main_v48
  exact RowOps.dotGeneral_plain_apply _ rfl none (ReadP.val_main_v47 (F := Ideal) x0 x1 x2 x3) x4 p q

/-- After the second aggregation: the bias along the columns, then the positive part, row by row. -/
theorem ref_v91 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x40, .f32⟩ : BufTy).Contents (Elt Ideal)) (x5 : (⟨S40, .f32⟩ : BufTy).Contents (Elt Ideal)) :
    ReadP.val_main_v91 (F := Ideal) x0 x1 x2 x3 x4 x5 = Gcn.rowwise (Gcn.brRow (fun h => x5 (ix1 h))) (ReadP.val_main_v87 (F := Ideal) x0 x1 x2 x3 x4) := by
  refine Gcn.arr_ext fun p q => ?_
  rw [Gcn.rowwise_apply]
  rw [ReadP.val_main_v91_apply, ReadP.val_main_v90_apply, ReadP.val_main_v89_apply, ReadP.val_main_v88_apply,
    ReadP.val_main_call3_v0_apply, ReadP.val_main_call3_cst_apply]
  have e : ReadP.idx_main_v88 (ReadP.idx_main_v89 (ix2 p q)) = ix1 q :=
    funext fun a => Fin.ext (by match a with | ⟨0, _⟩ => rfl)
  rw [e]
  rfl

/-- The word the reference starts its row maximum from, and pads it with, is −∞. -/
theorem negInf_word : (FloatOps.ofBits (F := Ideal) .f32 0xFF800000#32) = (⊥ : EReal) := by
  show Ideal.ofBits .f32 0xFF800000#32 = ⊥
  simp [Ideal.ofBits, Ideal.ieee]

/-- For any array: a maximum-reduce over the columns from −∞, taken once more against −∞, is at row `p`
    the largest entry of that row. -/
theorem rowmax_of (W : (⟨S50000x40, .f32⟩ : BufTy).Contents (Elt Ideal)) (p : Fin 50000) :
    FloatOps.maximumf (FloatOps.ofBits (F := Ideal) .f32 0xFF800000#32)
        (Host.reduce FloatOps.maximumf W (ReadP.val_main_call4_cst (F := Ideal)) reducesTo_S50000x40_S50000_d1 h_S_ (ix1 p))
      = Gcn.rowMax (fun k => W (ix2 p k)) := by
  have hr : S50000x40.Reduces [1] S50000 := by decide
  rw [Host.reduce_eq_fold_single FloatOps.maximumf _ _ reducesTo_S50000x40_S50000_d1 hr h_S_,
    ReadP.val_main_call4_cst_apply, negInf_word]
  -- the reduced index (p) with the column k put back is (p, k)
  have hf : (W ∘ hr.lift (ix1 p)) = fun k : Fin 40 => W (ix2 p k) :=
    funext fun k => congrArg W (funext fun a => Fin.ext (by fin_cases a <;> rfl))
  show max (⊥ : EReal) (Finset.fold max (⊥ : EReal) (W ∘ hr.lift (ix1 p)) (Finset.univ : Finset (Fin 40))) = _
  refine (max_eq_right bot_le).trans ?_
  exact congrArg (fun f => Finset.fold max (⊥ : EReal) f (Finset.univ : Finset (Fin 40))) hf

/-- The reference's row maximum is the largest entry of the row. -/
theorem rowmax_read (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x40, .f32⟩ : BufTy).Contents (Elt Ideal)) (x5 : (⟨S40, .f32⟩ : BufTy).Contents (Elt Ideal)) (p : Fin 50000) :
    ReadP.val_main_call4_v2 (F := Ideal) x0 x1 x2 x3 x4 x5 (ix1 p)
      = Gcn.rowMax (fun k => ReadP.val_main_v91 (F := Ideal) x0 x1 x2 x3 x4 x5 (ix2 p k)) := by
  rw [ReadP.val_main_call4_v2_apply, ReadP.val_main_call4_v1_apply, ReadP.val_main_call4_cst_0_apply]
  unfold ReadP.val_main_call4_v0
  generalize ReadP.val_main_v91 (F := Ideal) x0 x1 x2 x3 x4 x5 = W
  exact rowmax_of W p

/-- The last stage: the logarithm of the softmax of every row. -/
theorem ref_v92 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x40, .f32⟩ : BufTy).Contents (Elt Ideal)) (x5 : (⟨S40, .f32⟩ : BufTy).Contents (Elt Ideal)) :
    ReadP.val_main_v92 (F := Ideal) x0 x1 x2 x3 x4 x5 = Gcn.rowwise Gcn.lsmRow (ReadP.val_main_v91 (F := Ideal) x0 x1 x2 x3 x4 x5) := by
  refine Gcn.arr_ext fun p q => ?_
  rw [Gcn.rowwise_apply]
  -- the row maximum is read at row p, whatever the column
  have e3 : ∀ k : Fin 40, ReadP.idx_main_call4_v3 (ReadP.idx_main_call4_v4 (ix2 p k)) = ix1 p := fun k =>
    funext fun a => Fin.ext (by match a with | ⟨0, _⟩ => rfl)
  -- the sum of exponentials is read at row p, over the columns
  have e8 : ReadP.idx_main_call4_v8 (ReadP.idx_main_call4_v10 (ix2 p q)) = ix1 p :=
    funext fun a => Fin.ext (by match a with | ⟨0, _⟩ => rfl)
  have e7 : ∀ k : Fin 40, ReadP.idx_main_call4_v7 (ix1 p) k = ix2 p k := fun k =>
    funext fun a => Fin.ext (by match a with | ⟨0, _⟩ => rfl | ⟨1, _⟩ => rfl)
  -- the shifted row: every entry of row p less that row's maximum
  have h5 : ∀ k : Fin 40, ReadP.val_main_call4_v5 (F := Ideal) x0 x1 x2 x3 x4 x5 (ix2 p k)
      = FloatOps.subf (F := Ideal) (φ := .f32) (ReadP.val_main_v91 (F := Ideal) x0 x1 x2 x3 x4 x5 (ix2 p k)) (Gcn.rowMax (fun j => ReadP.val_main_v91 (F := Ideal) x0 x1 x2 x3 x4 x5 (ix2 p j))) := by
    intro k
    rw [ReadP.val_main_call4_v5_apply, ReadP.val_main_call4_v4_apply, ReadP.val_main_call4_v3_apply, e3 k, rowmax_read]
  -- its exponentials, column by column
  have h6 : ∀ k : Fin 40, ReadP.val_main_call4_v6 (F := Ideal) x0 x1 x2 x3 x4 x5 (ReadP.idx_main_call4_v7 (ix1 p) k)
      = FloatOps.hostUnary (F := Ideal) (φ := .f32) .exp (FloatOps.subf (F := Ideal) (φ := .f32) (ReadP.val_main_v91 (F := Ideal) x0 x1 x2 x3 x4 x5 (ix2 p k)) (Gcn.rowMax (fun j => ReadP.val_main_v91 (F := Ideal) x0 x1 x2 x3 x4 x5 (ix2 p j)))) := by
    intro k
    rw [e7 k, ReadP.val_main_call4_v6_apply, h5 k]
  rw [ReadP.val_main_v92_apply, ReadP.val_main_call4_v10_apply, ReadP.val_main_call4_v9_apply,
    ReadP.val_main_call4_v8_apply, ReadP.val_main_call4_v7_apply, ReadP.val_main_call4_cst_1_apply, e8,
    Finset.sum_congr rfl (fun k _ => h6 k), h5 q]
  -- from here on the stage before is any array
  generalize ReadP.val_main_v91 (F := Ideal) x0 x1 x2 x3 x4 x5 = W
  -- the sum starts from the zero word
  have hz : (FloatOps.ofBits (F := Ideal) .f32 0x00000000#32) = (0 : EReal) := Ideal.ofBits_zero_f32
  rw [hz, zero_add]
  rfl

end Cert.ReferenceIdeal.RefRows

end
-- ==== Proof.KValue.lean ====
/-
  The kernel's result as the reference's last stage.

  Walking @main: region 0's result is the projection x · W₁ of every row (the reference's first stage); the stretch
  after it aggregates along the edges (the reference's aggregation, whose input is that projection); region 1 adds the
  bias and takes the positive part row by row; region 2 projects by W₂; the stretch after it aggregates again; region
  3 adds the second bias, takes the positive part and the logarithm of the softmax of each row.  Each step is the
  reference's stage of the same name read row by row, so the buffer the program returns holds the reference's last
  stage of the launch arguments.
-/
import proofs.«132210_j42563125903764_1_alg».proof.Proof.Gen.KernelIdeal.Frame
import proofs.«132210_j42563125903764_1_alg».proof.Proof.Spec
import proofs.«132210_j42563125903764_1_alg».proof.Proof.RowKernel
import proofs.«132210_j42563125903764_1_alg».proof.Proof.Region0
import proofs.«132210_j42563125903764_1_alg».proof.Proof.Region1
import proofs.«132210_j42563125903764_1_alg».proof.Proof.Region2
import proofs.«132210_j42563125903764_1_alg».proof.Proof.Region3
import proofs.«132210_j42563125903764_1_alg».proof.Proof.KKeep
import proofs.«132210_j42563125903764_1_alg».proof.Proof.KAgg
import proofs.«132210_j42563125903764_1_alg».proof.Proof.RefRead
import proofs.«132210_j42563125903764_1_alg».proof.Proof.RefRows
import Idealize.ShloMosaic.Lib.ValueLayout

set_option maxRecDepth 16384

noncomputable section

namespace Cert.KernelIdeal.KValue

open Idealize.ShloMosaic Idealize.ShloMosaic.TcCoe Idealize.ShloMosaic.ValueIdx Idealize.SL.Sem
open Cert.KernelIdeal Cert.KernelIdeal.Gen
open Cert.ReferenceIdeal.ReadP (val_main_v4 val_main_v43 val_main_v47 val_main_v48 val_main_v87 val_main_v91 val_main_v92)
open Cert.ReferenceIdeal.RefRows (ref_v4 ref_v47 ref_v48 ref_v91 ref_v92)

variable (m : (ℓ : Loc nD τ sig) → Buf (Elt Ideal) ℓ) (ρ : Dev nD → PrngReg)

/-- The bias row the kernel stages is the bias cast to one row: its entry in column h is the bias's entry h. -/
theorem bias_row {H : ℕ} (b : (⟨1, ![H]⟩ : Shape).Idx → EReal) (hsc : (⟨1, ![H]⟩ : Shape).ShapeCasts ⟨2, ![1, H]⟩) :
    (fun h : Fin H => shapeCast ⟨2, ![1, H]⟩ b hsc (ix2 (0 : Fin 1) h)) = fun h => b (ix1 h) :=
  funext fun h => shapeCast_a_1a_apply b hsc 0 h

/-- A row function after a row function, row by row, is their composite row by row. -/
theorem rowwise_rowwise {N A B C : ℕ} (f : (Fin B → EReal) → Fin C → EReal) (g : (Fin A → EReal) → Fin B → EReal) (a : Gcn.Arr N A) :
    Gcn.rowwise f (Gcn.rowwise g a) = Gcn.rowwise (fun x => f (g x)) a := rfl

/-- Region 0's result: the first projection. -/
theorem v30 (c : Dev nD) : W4 m ρ c (Proc.devRef .tc main_v30)
    = val_main_v4 (F := Ideal) (m ((c : Thread nD τ).loc main_arg0)) (m ((c : Thread nD τ).loc main_arg2)) := by
  refine (W4_arr m ρ c 2).trans ?_
  refine (Region0.final (V3 m ρ) (fun w x => Gcn.mmRow w x) RowKernel.k0_pay_row c).trans ?_
  show Gcn.rowwise (Gcn.mmRow (W3 m ρ c (Proc.devRef .tc main_arg2))) (W3 m ρ c (Proc.devRef .tc main_arg0)) = _
  rw [KKeep.W3_arg m ρ c main_arg2 (by decide), KKeep.W3_arg m ρ c main_arg0 (by decide)]
  exact (ref_v4 _ _).symm

/-- Region 1's result: the first layer's output. -/
theorem v45 (c : Dev nD) : W6 m ρ c (Proc.devRef .tc main_v45)
    = val_main_v47 (F := Ideal) (m ((c : Thread nD τ).loc main_arg0)) (m ((c : Thread nD τ).loc main_arg1))
        (m ((c : Thread nD τ).loc main_arg2)) (m ((c : Thread nD τ).loc main_arg3)) := by
  refine (W6_arr m ρ c 2).trans ?_
  refine (Region1.final (V5 m ρ) (fun r x => Gcn.brRow (fun h => r (ix2 (0 : Fin 1) h)) x) RowKernel.k1_pay_row c).trans ?_
  show Gcn.rowwise (Gcn.brRow (fun h => W5 m ρ c (Proc.devRef .tc main_v44) (ix2 (0 : Fin 1) h))) (W5 m ρ c (Proc.devRef .tc main_v43)) = _
  rw [KAgg.v44, KAgg.v43 m ρ c _ (v30 m ρ c), ref_v47, bias_row, KAgg.agg1_eq]

/-- Region 2's result: the second projection. -/
theorem v46 (c : Dev nD) : W7 m ρ c (Proc.devRef .tc main_v46)
    = val_main_v48 (F := Ideal) (m ((c : Thread nD τ).loc main_arg0)) (m ((c : Thread nD τ).loc main_arg1))
        (m ((c : Thread nD τ).loc main_arg2)) (m ((c : Thread nD τ).loc main_arg3)) (m ((c : Thread nD τ).loc main_arg4)) := by
  refine (W7_arr m ρ c 2).trans ?_
  refine (Region2.final (V6 m ρ) (fun w x => Gcn.mmRow w x) RowKernel.k2_pay_row c).trans ?_
  show Gcn.rowwise (Gcn.mmRow (W6 m ρ c (Proc.devRef .tc main_arg4))) (W6 m ρ c (Proc.devRef .tc main_v45)) = _
  rw [KKeep.W6_arg4, v45, ref_v48]

/-- Region 3's result, the buffer @main returns: the reference's last stage. -/
theorem v61 (c : Dev nD) : W9 m ρ c (Proc.devRef .tc main_v61)
    = val_main_v92 (F := Ideal) (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) := by
  refine (W9_arr m ρ c 2).trans ?_
  refine (Region3.final (V8 m ρ) (fun r x => Gcn.lsmRow (Gcn.brRow (fun h => r (ix2 (0 : Fin 1) h)) x)) RowKernel.k3_pay_row c).trans ?_
  show Gcn.rowwise (fun x => Gcn.lsmRow (Gcn.brRow (fun h => W8 m ρ c (Proc.devRef .tc main_v60) (ix2 (0 : Fin 1) h)) x))
      (W8 m ρ c (Proc.devRef .tc main_v59)) = _
  rw [KAgg.v60, KAgg.v59 m ρ c _ (v46 m ρ c), ref_v92, ref_v91, rowwise_rowwise, bias_row, KAgg.agg2_eq]

end Cert.KernelIdeal.KValue

end
-- ==== Proof.RefStages.lean ====
/-
  The reference's run, read as its stages.

  The reference program is a straight line of host operations; running them from the launch memory leaves in every
  buffer the fold of the operations' results.  Read at the buffer the program returns, that fold is the last stage of
  the reference (the logarithm of the softmax) as a function of the six argument arrays: each operation's result is
  its function applied to its operands' results, and the stages are exactly those functions composed.
-/
import proofs.«132210_j42563125903764_1_alg».proof.Proof.RefRead
import Idealize.ShloMosaic.Lib.StableHlo.Run
import Idealize.ShloMosaic.Lib.Pipeline.Frame

set_option maxRecDepth 16384

noncomputable section

namespace Cert.ReferenceIdeal.RefStages

open Cert.ReferenceIdeal Cert.ReferenceIdeal.Gen Idealize.ShloMosaic Idealize.ShloMosaic.TcCoe Idealize.SL.Sem Idealize.ShloMosaic.StableHlo

variable {F : FTy → Type} [FloatOps F]

/-- Each operation's result read at a buffer: its function's value at its own result buffer, the earlier contents at any other
    (the operands inside a concatenate's list, which the one-pass reading does not reach). -/
local macro "results_at" : tactic =>
  `(tactic| repeat (first
      | rw [Idealize.ShloMosaic.StableHlo.nullary_result] | rw [Idealize.ShloMosaic.StableHlo.unary_result]
      | rw [Idealize.ShloMosaic.StableHlo.binary_result] | rw [Idealize.ShloMosaic.StableHlo.ternary_result]
      | rw [Idealize.ShloMosaic.StableHlo.reshape_result]
      | (rw [Idealize.ShloMosaic.StableHlo.nullary_result_ne]; rotate_left; decide)
      | (rw [Idealize.ShloMosaic.StableHlo.unary_result_ne]; rotate_left; decide)
      | (rw [Idealize.ShloMosaic.StableHlo.binary_result_ne]; rotate_left; decide)
      | (rw [Idealize.ShloMosaic.StableHlo.ternary_result_ne]; rotate_left; decide)
      | (rw [Idealize.ShloMosaic.StableHlo.reshape_result_ne]; rotate_left; decide)))

/-! ## The operations, in consecutive stretches -/

/-- Operations 0 to 5. -/
abbrev s1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    binary main_arg0 main_arg2 main_v4 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    nullary main_v5 (iotaInDim S50000 32 0) ]

/-- Operations 6 to 21. -/
abbrev s2 : List (HloOp τ sig (Elt F)) :=
  [ binary main_v1 main_v5 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v5 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf (F := F) .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v13) (TRef.of (T := ⟨S50000, .f32⟩) main_v14) (TRef.of (T := ⟨S50000, .f32⟩) main_call0_v1) (TRef.of (T := ⟨S50000, .f32⟩) main_v15) select ]

/-- Operations 22 to 40. -/
abbrev s3 : List (HloOp τ sig (Elt F)) :=
  [ nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v6 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v6 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v6 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v7 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v7 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v7 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)) ]

/-- Operations 41 to 56. -/
abbrev s4 : List (HloOp τ sig (Elt F)) :=
  [ nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v6 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v6 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v6 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v4 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v7 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- Operations 57 to 64. -/
abbrev s5 : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf,
    binary main_v47 main_arg4 main_v48 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)),
    nullary main_v49 (iotaInDim S50000 32 0) ]

/-- Operations 65 to 80. -/
abbrev s6 : List (HloOp τ sig (Elt F)) :=
  [ binary main_v1 main_v49 main_v50 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v3 main_v49 main_v51 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_9 (constant S_ .f32 0x3F800000#32),
    unary main_cst_9 main_v52 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v53 (broadcastInDim S50000 ![] bcast_S_S50000 : (⟨S_, .f32⟩ : BufTy).Contents (Elt F) → (⟨S50000, .f32⟩ : BufTy).Contents (Elt F)),
    unary main_v51 main_v54 (broadcastInDim S850000x1 ![0] bcast_S850000_S850000x1_0 : (⟨S850000, .i32⟩ : BufTy).Contents (Elt F) → (⟨S850000x1, .i32⟩ : BufTy).Contents (Elt F)),
    ternary main_v53 main_v54 main_v52 main_v55 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v56 (broadcastInDim S50000 ![] bcast_S_S50000 : (⟨S_, .f32⟩ : BufTy).Contents (Elt F) → (⟨S50000, .f32⟩ : BufTy).Contents (Elt F)),
    binary main_v55 main_v56 main_v57 (cmpf (F := F) .ogt : (⟨S50000, .f32⟩ : BufTy).Contents (Elt F) → (⟨S50000, .f32⟩ : BufTy).Contents (Elt F) → (⟨S50000, .i1⟩ : BufTy).Contents (Elt F)),
    unary main_v55 main_v58 (Host.rsqrt : (⟨S50000, .f32⟩ : BufTy).Contents (Elt F) → (⟨S50000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S50000, .f32⟩) main_call2_v1) (broadcastInDim S50000 ![] bcast_S_S50000),
    TRef.ternary (TRef.of (T := ⟨S50000, .i1⟩) main_v57) (TRef.of (T := ⟨S50000, .f32⟩) main_v58) (TRef.of (T := ⟨S50000, .f32⟩) main_call2_v1) (TRef.of (T := ⟨S50000, .f32⟩) main_v59) select ]

/-- Operations 81 to 99. -/
abbrev s7 : List (HloOp τ sig (Elt F)) :=
  [ nullary main_c_13 (constantI S_ 32 0#32),
    unary main_c_13 main_v60 (broadcastInDim S850000 ![] bcast_S_S850000 : (⟨S_, .i32⟩ : BufTy).Contents (Elt F) → (⟨S850000, .i32⟩ : BufTy).Contents (Elt F)),
    binary main_v50 main_v60 main_v61 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v62 (broadcastInDim S850000 ![] bcast_S_S850000 : (⟨S_, .i32⟩ : BufTy).Contents (Elt F) → (⟨S850000, .i32⟩ : BufTy).Contents (Elt F)),
    binary main_v50 main_v62 main_v63 (addi : (⟨S850000, .i32⟩ : BufTy).Contents (Elt F) → (⟨S850000, .i32⟩ : BufTy).Contents (Elt F) → (⟨S850000, .i32⟩ : BufTy).Contents (Elt F)),
    ternary main_v61 main_v63 main_v50 main_v64 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v64 main_v65 (broadcastInDim S850000x1 ![0] bcast_S850000_S850000x1_0 : (⟨S850000, .i32⟩ : BufTy).Contents (Elt F) → (⟨S850000x1, .i32⟩ : BufTy).Contents (Elt F)),
    binary main_v59 main_v65 main_v66 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v67 (broadcastInDim S850000 ![] bcast_S_S850000 : (⟨S_, .i32⟩ : BufTy).Contents (Elt F) → (⟨S850000, .i32⟩ : BufTy).Contents (Elt F)),
    binary main_v51 main_v67 main_v68 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v69 (broadcastInDim S850000 ![] bcast_S_S850000 : (⟨S_, .i32⟩ : BufTy).Contents (Elt F) → (⟨S850000, .i32⟩ : BufTy).Contents (Elt F)),
    binary main_v51 main_v69 main_v70 (addi : (⟨S850000, .i32⟩ : BufTy).Contents (Elt F) → (⟨S850000, .i32⟩ : BufTy).Contents (Elt F) → (⟨S850000, .i32⟩ : BufTy).Contents (Elt F)),
    ternary main_v68 main_v70 main_v51 main_v71 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v71 main_v72 (broadcastInDim S850000x1 ![0] bcast_S850000_S850000x1_0 : (⟨S850000, .i32⟩ : BufTy).Contents (Elt F) → (⟨S850000x1, .i32⟩ : BufTy).Contents (Elt F)),
    binary main_v59 main_v72 main_v73 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v66 main_v73 main_v74 (mulf : (⟨S850000, .f32⟩ : BufTy).Contents (Elt F) → (⟨S850000, .f32⟩ : BufTy).Contents (Elt F) → (⟨S850000, .f32⟩ : BufTy).Contents (Elt F)) ]

/-- Operations 100 to 115. -/
abbrev s8 : List (HloOp τ sig (Elt F)) :=
  [ nullary main_c_17 (constantI S_ 32 0#32),
    unary main_c_17 main_v75 (broadcastInDim S850000 ![] bcast_S_S850000 : (⟨S_, .i32⟩ : BufTy).Contents (Elt F) → (⟨S850000, .i32⟩ : BufTy).Contents (Elt F)),
    binary main_v50 main_v75 main_v76 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v77 (broadcastInDim S850000 ![] bcast_S_S850000 : (⟨S_, .i32⟩ : BufTy).Contents (Elt F) → (⟨S850000, .i32⟩ : BufTy).Contents (Elt F)),
    binary main_v50 main_v77 main_v78 (addi : (⟨S850000, .i32⟩ : BufTy).Contents (Elt F) → (⟨S850000, .i32⟩ : BufTy).Contents (Elt F) → (⟨S850000, .i32⟩ : BufTy).Contents (Elt F)),
    ternary main_v76 main_v78 main_v50 main_v79 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v79 main_v80 (broadcastInDim S850000x1 ![0] bcast_S850000_S850000x1_0 : (⟨S850000, .i32⟩ : BufTy).Contents (Elt F) → (⟨S850000x1, .i32⟩ : BufTy).Contents (Elt F)),
    binary main_v48 main_v80 main_v81 ((fun x i => Host.gather gather_S50000x40_S850000x1_S850000x40_1_0_n_n_0_1_140 x i) : (⟨S50000x40, .f32⟩ : BufTy).Contents (Elt F) → (⟨S850000x1, .i32⟩ : BufTy).Contents (Elt F) → (⟨S850000x40, .f32⟩ : BufTy).Contents (Elt F)),
    unary main_v74 main_v82 (broadcastInDim S850000x1 ![0] bcast_S850000_S850000x1_0 : (⟨S850000, .f32⟩ : BufTy).Contents (Elt F) → (⟨S850000x1, .f32⟩ : BufTy).Contents (Elt F)),
    unary main_v82 main_v83 (broadcastInDim S850000x40 ![0, 1] bcast_S850000x1_S850000x40_0_1 : (⟨S850000x1, .f32⟩ : BufTy).Contents (Elt F) → (⟨S850000x40, .f32⟩ : BufTy).Contents (Elt F)),
    binary main_v81 main_v83 main_v84 (mulf : (⟨S850000x40, .f32⟩ : BufTy).Contents (Elt F) → (⟨S850000x40, .f32⟩ : BufTy).Contents (Elt F) → (⟨S850000x40, .f32⟩ : BufTy).Contents (Elt F)),
    nullary main_cst_19 (constant S_ .f32 0x00000000#32),
    unary main_cst_19 main_v85 (broadcastInDim S50000x40 ![] bcast_S_S50000x40 : (⟨S_, .f32⟩ : BufTy).Contents (Elt F) → (⟨S50000x40, .f32⟩ : BufTy).Contents (Elt F)),
    unary main_v51 main_v86 (broadcastInDim S850000x1 ![0] bcast_S850000_S850000x1_0 : (⟨S850000, .i32⟩ : BufTy).Contents (Elt F) → (⟨S850000x1, .i32⟩ : BufTy).Contents (Elt F)),
    ternary main_v85 main_v86 main_v84 main_v87 ((fun x i u => Host.scatterAdd scatter_S50000x40_S850000x1_S850000x40_1_0_0_1 x i u) : (⟨S50000x40, .f32⟩ : BufTy).Contents (Elt F) → (⟨S850000x1, .i32⟩ : BufTy).Contents (Elt F) → (⟨S850000x40, .f32⟩ : BufTy).Contents (Elt F) → (⟨S50000x40, .f32⟩ : BufTy).Contents (Elt F)) ]

/-- Operations 116 to 121. -/
abbrev s9 : List (HloOp τ sig (Elt F)) :=
  [ unary main_arg5 main_v88 (broadcastInDim S1x40 ![1] bcast_S40_S1x40_1 : (⟨S40, .f32⟩ : BufTy).Contents (Elt F) → (⟨S1x40, .f32⟩ : BufTy).Contents (Elt F)),
    unary main_v88 main_v89 (broadcastInDim S50000x40 ![0, 1] bcast_S1x40_S50000x40_0_1 : (⟨S1x40, .f32⟩ : BufTy).Contents (Elt F) → (⟨S50000x40, .f32⟩ : BufTy).Contents (Elt F)),
    binary main_v87 main_v89 main_v90 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S50000x40, .f32⟩) main_call3_v0) (broadcastInDim S50000x40 ![] bcast_S_S50000x40),
    TRef.binary (TRef.of (T := ⟨S50000x40, .f32⟩) main_v90) (TRef.of (T := ⟨S50000x40, .f32⟩) main_call3_v0) (TRef.of (T := ⟨S50000x40, .f32⟩) main_v91) maximumf ]

/-- Operations 122 to 126. -/
abbrev s10 : List (HloOp τ sig (Elt F)) :=
  [ TRef.nullary (TRef.of (T := ⟨S_, .f32⟩) main_call4_cst) (constant S_ .f32 0xFF800000#32),
    TRef.binary (TRef.of (T := ⟨S50000x40, .f32⟩) main_v91) (TRef.of (T := ⟨S_, .f32⟩) main_call4_cst) (TRef.of (T := ⟨S50000, .f32⟩) main_call4_v0) (fun x v => Host.reduce FloatOps.maximumf x v reducesTo_S50000x40_S50000_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S50000, .f32⟩) main_call4_v1) (broadcastInDim S50000 ![] bcast_S_S50000),
    TRef.binary (TRef.of (T := ⟨S50000, .f32⟩) main_call4_v1) (TRef.of (T := ⟨S50000, .f32⟩) main_call4_v0) (TRef.of (T := ⟨S50000, .f32⟩) main_call4_v2) maximumf ]

/-- Operations 127 to 131. -/
abbrev s11 : List (HloOp τ sig (Elt F)) :=
  [ TRef.unary (TRef.of (T := ⟨S50000, .f32⟩) main_call4_v2) (TRef.of (T := ⟨S50000x1, .f32⟩) main_call4_v3) (broadcastInDim S50000x1 ![0] bcast_S50000_S50000x1_0),
    TRef.unary (TRef.of (T := ⟨S50000x1, .f32⟩) main_call4_v3) (TRef.of (T := ⟨S50000x40, .f32⟩) main_call4_v4) (broadcastInDim S50000x40 ![0, 1] bcast_S50000x1_S50000x40_0_1),
    TRef.binary (TRef.of (T := ⟨S50000x40, .f32⟩) main_v91) (TRef.of (T := ⟨S50000x40, .f32⟩) main_call4_v4) (TRef.of (T := ⟨S50000x40, .f32⟩) main_call4_v5) subf,
    TRef.unary (TRef.of (T := ⟨S50000x40, .f32⟩) main_call4_v5) (TRef.of (T := ⟨S50000x40, .f32⟩) main_call4_v6) Host.exp,
    TRef.nullary (TRef.of (T := ⟨S_, .f32⟩) main_call4_cst_1) (constant S_ .f32 0x00000000#32) ]

/-- Operations 132 to 136. -/
abbrev s12 : List (HloOp τ sig (Elt F)) :=
  [ TRef.binary (TRef.of (T := ⟨S50000x40, .f32⟩) main_call4_v6) (TRef.of (T := ⟨S_, .f32⟩) main_call4_cst_1) (TRef.of (T := ⟨S50000, .f32⟩) main_call4_v7) (fun x v => Host.reduceAdd x v reducesTo_S50000x40_S50000_d1 h_S_),
    TRef.unary (TRef.of (T := ⟨S50000, .f32⟩) main_call4_v7) (TRef.of (T := ⟨S50000x1, .f32⟩) main_call4_v8) (broadcastInDim S50000x1 ![0] bcast_S50000_S50000x1_0),
    TRef.unary (TRef.of (T := ⟨S50000x1, .f32⟩) main_call4_v8) (TRef.of (T := ⟨S50000x1, .f32⟩) main_call4_v9) Host.log,
    TRef.unary (TRef.of (T := ⟨S50000x1, .f32⟩) main_call4_v9) (TRef.of (T := ⟨S50000x40, .f32⟩) main_call4_v10) (broadcastInDim S50000x40 ![0, 1] bcast_S50000x1_S50000x40_0_1),
    TRef.binary (TRef.of (T := ⟨S50000x40, .f32⟩) main_call4_v5) (TRef.of (T := ⟨S50000x40, .f32⟩) main_call4_v10) (TRef.of (T := ⟨S50000x40, .f32⟩) main_v92) subf ]

/-- The operation list is the stretches laid end to end. -/
theorem ops_cut : (ValueP.ops (F := F)) = s1 (F := F) ++ (s2 (F := F) ++ (s3 (F := F) ++ (s4 (F := F) ++ (s5 (F := F) ++ (s6 (F := F) ++ (s7 (F := F) ++ (s8 (F := F) ++ (s9 (F := F) ++ (s10 (F := F) ++ (s11 (F := F) ++ (s12 (F := F)))))))))))) := rfl

/-! ## What is still read at each cut, and each stretch carrying it on -/

/-- What the later operations still read, after the first 0 operations: each such buffer holds its stage. -/
structure Live0 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) : Prop where
  arg0 : V (Proc.devRef .tc main_arg0) = x0
  arg1 : V (Proc.devRef .tc main_arg1) = x1
  arg2 : V (Proc.devRef .tc main_arg2) = x2
  arg3 : V (Proc.devRef .tc main_arg3) = x3
  arg4 : V (Proc.devRef .tc main_arg4) = x4
  arg5 : V (Proc.devRef .tc main_arg5) = x5

/-- What the later operations still read, after the first 6 operations: each such buffer holds its stage. -/
structure Live1 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) : Prop where
  arg3 : V (Proc.devRef .tc main_arg3) = x3
  arg4 : V (Proc.devRef .tc main_arg4) = x4
  arg5 : V (Proc.devRef .tc main_arg5) = x5
  v1 : V (Proc.devRef .tc main_v1) = ReadP.val_main_v1 (F := F) x1
  v3 : V (Proc.devRef .tc main_v3) = ReadP.val_main_v3 (F := F) x1
  v4 : V (Proc.devRef .tc main_v4) = ReadP.val_main_v4 (F := F) x0 x2
  v5 : V (Proc.devRef .tc main_v5) = ReadP.val_main_v5 (F := F)

/-- What the later operations still read, after the first 22 operations: each such buffer holds its stage. -/
structure Live2 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) : Prop where
  arg3 : V (Proc.devRef .tc main_arg3) = x3
  arg4 : V (Proc.devRef .tc main_arg4) = x4
  arg5 : V (Proc.devRef .tc main_arg5) = x5
  v1 : V (Proc.devRef .tc main_v1) = ReadP.val_main_v1 (F := F) x1
  v3 : V (Proc.devRef .tc main_v3) = ReadP.val_main_v3 (F := F) x1
  v4 : V (Proc.devRef .tc main_v4) = ReadP.val_main_v4 (F := F) x0 x2
  v6 : V (Proc.devRef .tc main_v6) = ReadP.val_main_v6 (F := F) x1
  v7 : V (Proc.devRef .tc main_v7) = ReadP.val_main_v7 (F := F) x1
  v15 : V (Proc.devRef .tc main_v15) = ReadP.val_main_v15 (F := F) x1

/-- What the later operations still read, after the first 41 operations: each such buffer holds its stage. -/
structure Live3 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) : Prop where
  arg3 : V (Proc.devRef .tc main_arg3) = x3
  arg4 : V (Proc.devRef .tc main_arg4) = x4
  arg5 : V (Proc.devRef .tc main_arg5) = x5
  v1 : V (Proc.devRef .tc main_v1) = ReadP.val_main_v1 (F := F) x1
  v3 : V (Proc.devRef .tc main_v3) = ReadP.val_main_v3 (F := F) x1
  v4 : V (Proc.devRef .tc main_v4) = ReadP.val_main_v4 (F := F) x0 x2
  v6 : V (Proc.devRef .tc main_v6) = ReadP.val_main_v6 (F := F) x1
  v7 : V (Proc.devRef .tc main_v7) = ReadP.val_main_v7 (F := F) x1
  v30 : V (Proc.devRef .tc main_v30) = ReadP.val_main_v30 (F := F) x1

/-- What the later operations still read, after the first 57 operations: each such buffer holds its stage. -/
structure Live4 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) : Prop where
  arg3 : V (Proc.devRef .tc main_arg3) = x3
  arg4 : V (Proc.devRef .tc main_arg4) = x4
  arg5 : V (Proc.devRef .tc main_arg5) = x5
  v1 : V (Proc.devRef .tc main_v1) = ReadP.val_main_v1 (F := F) x1
  v3 : V (Proc.devRef .tc main_v3) = ReadP.val_main_v3 (F := F) x1
  v43 : V (Proc.devRef .tc main_v43) = ReadP.val_main_v43 (F := F) x0 x1 x2

/-- What the later operations still read, after the first 65 operations: each such buffer holds its stage. -/
structure Live5 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) : Prop where
  arg5 : V (Proc.devRef .tc main_arg5) = x5
  v1 : V (Proc.devRef .tc main_v1) = ReadP.val_main_v1 (F := F) x1
  v3 : V (Proc.devRef .tc main_v3) = ReadP.val_main_v3 (F := F) x1
  v48 : V (Proc.devRef .tc main_v48) = ReadP.val_main_v48 (F := F) x0 x1 x2 x3 x4
  v49 : V (Proc.devRef .tc main_v49) = ReadP.val_main_v49 (F := F)

/-- What the later operations still read, after the first 81 operations: each such buffer holds its stage. -/
structure Live6 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) : Prop where
  arg5 : V (Proc.devRef .tc main_arg5) = x5
  v48 : V (Proc.devRef .tc main_v48) = ReadP.val_main_v48 (F := F) x0 x1 x2 x3 x4
  v50 : V (Proc.devRef .tc main_v50) = ReadP.val_main_v50 (F := F) x1
  v51 : V (Proc.devRef .tc main_v51) = ReadP.val_main_v51 (F := F) x1
  v59 : V (Proc.devRef .tc main_v59) = ReadP.val_main_v59 (F := F) x1

/-- What the later operations still read, after the first 100 operations: each such buffer holds its stage. -/
structure Live7 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) : Prop where
  arg5 : V (Proc.devRef .tc main_arg5) = x5
  v48 : V (Proc.devRef .tc main_v48) = ReadP.val_main_v48 (F := F) x0 x1 x2 x3 x4
  v50 : V (Proc.devRef .tc main_v50) = ReadP.val_main_v50 (F := F) x1
  v51 : V (Proc.devRef .tc main_v51) = ReadP.val_main_v51 (F := F) x1
  v74 : V (Proc.devRef .tc main_v74) = ReadP.val_main_v74 (F := F) x1

/-- What the later operations still read, after the first 116 operations: each such buffer holds its stage. -/
structure Live8 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) : Prop where
  arg5 : V (Proc.devRef .tc main_arg5) = x5
  v87 : V (Proc.devRef .tc main_v87) = ReadP.val_main_v87 (F := F) x0 x1 x2 x3 x4

/-- What the later operations still read, after the first 122 operations: each such buffer holds its stage. -/
structure Live9 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) : Prop where
  v91 : V (Proc.devRef .tc main_v91) = ReadP.val_main_v91 (F := F) x0 x1 x2 x3 x4 x5

/-- What the later operations still read, after the first 127 operations: each such buffer holds its stage. -/
structure Live10 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) : Prop where
  v91 : V (Proc.devRef .tc main_v91) = ReadP.val_main_v91 (F := F) x0 x1 x2 x3 x4 x5
  call4_v2 : V (Proc.devRef .tc main_call4_v2) = ReadP.val_main_call4_v2 (F := F) x0 x1 x2 x3 x4 x5

/-- What the later operations still read, after the first 132 operations: each such buffer holds its stage. -/
structure Live11 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) : Prop where
  call4_v5 : V (Proc.devRef .tc main_call4_v5) = ReadP.val_main_call4_v5 (F := F) x0 x1 x2 x3 x4 x5
  call4_v6 : V (Proc.devRef .tc main_call4_v6) = ReadP.val_main_call4_v6 (F := F) x0 x1 x2 x3 x4 x5
  call4_cst_1 : V (Proc.devRef .tc main_call4_cst_1) = ReadP.val_main_call4_cst_1 (F := F)

/-- What the later operations still read, after the first 137 operations: each such buffer holds its stage. -/
structure Live12 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) : Prop where
  v92 : V (Proc.devRef .tc main_v92) = ReadP.val_main_v92 (F := F) x0 x1 x2 x3 x4 x5

set_option maxHeartbeats 1000000 in
/-- Operations 0 to 5 carry the stages on. -/
theorem step1 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) (h : Live0 V x0 x1 x2 x3 x4 x5) :
    Live1 (after (s1 (F := F)) V) x0 x1 x2 x3 x4 x5 where
  arg3 := by
    after_results_simp
    exact h.arg3
  arg4 := by
    after_results_simp
    exact h.arg4
  arg5 := by
    after_results_simp
    exact h.arg5
  v1 := by
    after_results_simp
    results_at
    rw [h.arg1]
    rfl
  v3 := by
    after_results_simp
    results_at
    rw [h.arg1]
    rfl
  v4 := by
    after_results_simp
    results_at
    rw [h.arg0, h.arg2]
    rfl
  v5 := by
    after_results_simp
    results_at
    rfl

set_option maxHeartbeats 1000000 in
/-- Operations 6 to 21 carry the stages on. -/
theorem step2 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) (h : Live1 V x0 x1 x2 x3 x4 x5) :
    Live2 (after (s2 (F := F)) V) x0 x1 x2 x3 x4 x5 where
  arg3 := by
    after_results_simp
    exact h.arg3
  arg4 := by
    after_results_simp
    exact h.arg4
  arg5 := by
    after_results_simp
    exact h.arg5
  v1 := by
    after_results_simp
    exact h.v1
  v3 := by
    after_results_simp
    exact h.v3
  v4 := by
    after_results_simp
    exact h.v4
  v6 := by
    after_results_simp
    results_at
    rw [h.v1, h.v5]
    rfl
  v7 := by
    after_results_simp
    results_at
    rw [h.v3, h.v5]
    rfl
  v15 := by
    after_results_simp
    results_at
    try simp only [TRef.ofBuf, TRef.toBuf, cast_eq]
    rw [h.v3, h.v5]
    rfl

set_option maxHeartbeats 1000000 in
/-- Operations 22 to 40 carry the stages on. -/
theorem step3 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) (h : Live2 V x0 x1 x2 x3 x4 x5) :
    Live3 (after (s3 (F := F)) V) x0 x1 x2 x3 x4 x5 where
  arg3 := by
    after_results_simp
    exact h.arg3
  arg4 := by
    after_results_simp
    exact h.arg4
  arg5 := by
    after_results_simp
    exact h.arg5
  v1 := by
    after_results_simp
    exact h.v1
  v3 := by
    after_results_simp
    exact h.v3
  v4 := by
    after_results_simp
    exact h.v4
  v6 := by
    after_results_simp
    exact h.v6
  v7 := by
    after_results_simp
    exact h.v7
  v30 := by
    after_results_simp
    results_at
    rw [h.v6, h.v7, h.v15]
    rfl

set_option maxHeartbeats 1000000 in
/-- Operations 41 to 56 carry the stages on. -/
theorem step4 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) (h : Live3 V x0 x1 x2 x3 x4 x5) :
    Live4 (after (s4 (F := F)) V) x0 x1 x2 x3 x4 x5 where
  arg3 := by
    after_results_simp
    exact h.arg3
  arg4 := by
    after_results_simp
    exact h.arg4
  arg5 := by
    after_results_simp
    exact h.arg5
  v1 := by
    after_results_simp
    exact h.v1
  v3 := by
    after_results_simp
    exact h.v3
  v43 := by
    after_results_simp
    results_at
    rw [h.v4, h.v6, h.v7, h.v30]
    rfl

set_option maxHeartbeats 1000000 in
/-- Operations 57 to 64 carry the stages on. -/
theorem step5 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) (h : Live4 V x0 x1 x2 x3 x4 x5) :
    Live5 (after (s5 (F := F)) V) x0 x1 x2 x3 x4 x5 where
  arg5 := by
    after_results_simp
    exact h.arg5
  v1 := by
    after_results_simp
    exact h.v1
  v3 := by
    after_results_simp
    exact h.v3
  v48 := by
    after_results_simp
    results_at
    try simp only [TRef.ofBuf, TRef.toBuf, cast_eq]
    rw [h.arg3, h.arg4, h.v43]
    rfl
  v49 := by
    after_results_simp
    results_at
    rfl

set_option maxHeartbeats 1000000 in
/-- Operations 65 to 80 carry the stages on. -/
theorem step6 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) (h : Live5 V x0 x1 x2 x3 x4 x5) :
    Live6 (after (s6 (F := F)) V) x0 x1 x2 x3 x4 x5 where
  arg5 := by
    after_results_simp
    exact h.arg5
  v48 := by
    after_results_simp
    exact h.v48
  v50 := by
    after_results_simp
    results_at
    rw [h.v1, h.v49]
    rfl
  v51 := by
    after_results_simp
    results_at
    rw [h.v3, h.v49]
    rfl
  v59 := by
    after_results_simp
    results_at
    try simp only [TRef.ofBuf, TRef.toBuf, cast_eq]
    rw [h.v3, h.v49]
    rfl

set_option maxHeartbeats 1000000 in
/-- Operations 81 to 99 carry the stages on. -/
theorem step7 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) (h : Live6 V x0 x1 x2 x3 x4 x5) :
    Live7 (after (s7 (F := F)) V) x0 x1 x2 x3 x4 x5 where
  arg5 := by
    after_results_simp
    exact h.arg5
  v48 := by
    after_results_simp
    exact h.v48
  v50 := by
    after_results_simp
    exact h.v50
  v51 := by
    after_results_simp
    exact h.v51
  v74 := by
    after_results_simp
    results_at
    rw [h.v50, h.v51, h.v59]
    rfl

set_option maxHeartbeats 1000000 in
/-- Operations 100 to 115 carry the stages on. -/
theorem step8 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) (h : Live7 V x0 x1 x2 x3 x4 x5) :
    Live8 (after (s8 (F := F)) V) x0 x1 x2 x3 x4 x5 where
  arg5 := by
    after_results_simp
    exact h.arg5
  v87 := by
    after_results_simp
    results_at
    rw [h.v48, h.v50, h.v51, h.v74]
    rfl

set_option maxHeartbeats 1000000 in
/-- Operations 116 to 121 carry the stages on. -/
theorem step9 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) (h : Live8 V x0 x1 x2 x3 x4 x5) :
    Live9 (after (s9 (F := F)) V) x0 x1 x2 x3 x4 x5 where
  v91 := by
    after_results_simp
    results_at
    try simp only [TRef.ofBuf, TRef.toBuf, cast_eq]
    rw [h.arg5, h.v87]
    rfl

set_option maxHeartbeats 1000000 in
/-- Operations 122 to 126 carry the stages on. -/
theorem step10 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) (h : Live9 V x0 x1 x2 x3 x4 x5) :
    Live10 (after (s10 (F := F)) V) x0 x1 x2 x3 x4 x5 where
  v91 := by
    after_results_simp
    exact h.v91
  call4_v2 := by
    after_results_simp
    results_at
    delta TRef.ofBuf TRef.toBuf
    repeat rw [cast_eq]
    rw [h.v91]
    rfl

set_option maxHeartbeats 1000000 in
/-- Operations 127 to 131 carry the stages on. -/
theorem step11 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) (h : Live10 V x0 x1 x2 x3 x4 x5) :
    Live11 (after (s11 (F := F)) V) x0 x1 x2 x3 x4 x5 where
  call4_v5 := by
    after_results_simp
    results_at
    try simp only [TRef.ofBuf, TRef.toBuf, cast_eq]
    rw [h.v91, h.call4_v2]
    rfl
  call4_v6 := by
    after_results_simp
    results_at
    try simp only [TRef.ofBuf, TRef.toBuf, cast_eq]
    rw [h.v91, h.call4_v2]
    rfl
  call4_cst_1 := by
    after_results_simp
    results_at
    try simp only [TRef.ofBuf, TRef.toBuf, cast_eq]
    rfl

set_option maxHeartbeats 1000000 in
/-- Operations 132 to 136 carry the stages on. -/
theorem step12 (V : Valuation τ sig (Elt F)) (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) (h : Live11 V x0 x1 x2 x3 x4 x5) :
    Live12 (after (s12 (F := F)) V) x0 x1 x2 x3 x4 x5 where
  v92 := by
    after_results_simp
    results_at
    try simp only [TRef.ofBuf, TRef.toBuf, cast_eq]
    rw [h.call4_v5, h.call4_v6, h.call4_cst_1]
    rfl

/-! ## The whole run -/

/-- The returned buffer after the operations is the last stage of the launch arguments. -/
theorem stage92 (m : (ℓ : Loc nD τ sig) → Buf (Elt F) ℓ) (c : Dev nD) :
    after (Cert.ReferenceIdeal.ValueP.ops (F := F)) (launchContents m c) (Proc.devRef .tc main_v92)
      = Cert.ReferenceIdeal.ReadP.val_main_v92 (F := F) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) := by
  -- at the launch every argument buffer holds its argument
  have h0 : Live0 (launchContents m c) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
    ⟨rfl, rfl, rfl, rfl, rfl, rfl⟩
  have h1 := step1 _ _ _ _ _ _ _ h0
  have h2 := step2 _ _ _ _ _ _ _ h1
  have h3 := step3 _ _ _ _ _ _ _ h2
  have h4 := step4 _ _ _ _ _ _ _ h3
  have h5 := step5 _ _ _ _ _ _ _ h4
  have h6 := step6 _ _ _ _ _ _ _ h5
  have h7 := step7 _ _ _ _ _ _ _ h6
  have h8 := step8 _ _ _ _ _ _ _ h7
  have h9 := step9 _ _ _ _ _ _ _ h8
  have h10 := step10 _ _ _ _ _ _ _ h9
  have h11 := step11 _ _ _ _ _ _ _ h10
  have h12 := step12 _ _ _ _ _ _ _ h11
  rw [ops_cut]
  simp only [after_append]
  exact h12.v92

end Cert.ReferenceIdeal.RefStages

end
-- ==== Proof.lean ====
/-
  A two-layer graph convolution against its plain-jnp reference, over the extended reals.

  Both programs compute, from the node features x, the edge list and the weights,
      log_softmax (relu (Â · (relu (Â · (x · W₁) + b₁) · W₂) + b₂)),
  where Â · t gathers the rows of t along the edges (self loops appended), scales each by
  deg^-1/2[src] · deg^-1/2[dst] and scatter-adds it into its destination node.  The kernel program runs the two
  projections, the two bias-and-positive-part steps and the final logarithm of the softmax as four row-blocked
  regions (25 blocks of 2000 rows), and leaves Â to the same host operations the reference uses.  Every region acts on
  each row by itself, so its 25 result blocks tile the array "the row function applied to every row"; the reference's
  dense stages are the same row functions (a matrix product into a zero accumulator is the contraction's sum, a change
  of float format is the identity, max(−∞, ·) and 0 + · are the identity); and the aggregation, a composition of gather,
  product and scatter-add shared by both programs, is carried as one unopened function of its input.  Hence the buffer
  the kernel program returns holds the reference's last stage of the launch arguments.  No law used needs finiteness:
  the precondition is never opened.
  The three frames are the generated ones (the reference's: its run with the result dropped); the ideal pass rewrote
  nothing, so `preserves` is trivial.
-/
import proofs.«132210_j42563125903764_1_alg».proof.Defs
import proofs.«132210_j42563125903764_1_alg».proof.Proof.Gen.Kernel
import proofs.«132210_j42563125903764_1_alg».proof.Proof.Gen.Kernel.Frame
import proofs.«132210_j42563125903764_1_alg».proof.Proof.Gen.KernelIdeal
import proofs.«132210_j42563125903764_1_alg».proof.Proof.Gen.KernelIdeal.Frame
import proofs.«132210_j42563125903764_1_alg».proof.Proof.Gen.ReferenceIdeal
import proofs.«132210_j42563125903764_1_alg».proof.Proof.Gen.Pre_finite_inputs
import proofs.«132210_j42563125903764_1_alg».proof.Proof.KernelRun
import proofs.«132210_j42563125903764_1_alg».proof.Proof.KValue
import proofs.«132210_j42563125903764_1_alg».proof.Proof.RefRun
import proofs.«132210_j42563125903764_1_alg».proof.Proof.RefRead
import proofs.«132210_j42563125903764_1_alg».proof.Proof.RefStages
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- Both runs end with the result at the reference's last stage of the (agreeing) arguments. -/
theorem algebraic : Cert.algebraic_KernelIdeal_ReferenceIdeal := by
  intro m ρ m' ρ' _ hagree
  refine ⟨fun c => Cert.ReferenceIdeal.ReadP.val_main_v92 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.KValue.v61 m ρ c), (h c).2⟩)
      (Cert.KernelIdeal.KRun.run_result (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.RefStages.stage92, (hagree c).1, (hagree c).2.1, (hagree c).2.2.1, (hagree c).2.2.2.1,
      (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
